-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1433 : Shape := ⟨2, ![50000, 1433]⟩
abbrev S1600000 : Shape := ⟨1, ![1600000]⟩
abbrev S1433x128 : Shape := ⟨2, ![1433, 128]⟩
abbrev S128 : Shape := ⟨1, ![128]⟩
abbrev S128x7 : Shape := ⟨2, ![128, 7]⟩
abbrev S7 : Shape := ⟨1, ![7]⟩
abbrev S_ : Shape := ⟨0, ![]⟩

class Facts : Prop where
  bcast_S_S50000x1433 : S_.BroadcastsInDim S50000x1433 (![] : Fin 0 → Fin S50000x1433.rank)
  reducesTo_S50000x1433_S_d0_1 : S50000x1433.ReducesTo [0, 1] S_
  h_S_ : 0 < S_.numel
  bcast_S_S1433x128 : S_.BroadcastsInDim S1433x128 (![] : Fin 0 → Fin S1433x128.rank)
  reducesTo_S1433x128_S_d0_1 : S1433x128.ReducesTo [0, 1] S_
  bcast_S_S128 : S_.BroadcastsInDim S128 (![] : Fin 0 → Fin S128.rank)
  reducesTo_S128_S_d0 : S128.ReducesTo [0] S_
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg6 : FVec F S7 .f32) (main_v13 : IVec S_ 1) (main_v16 : IVec S128x7 1) : IVec S_ 1 :=
  let main_c_5 : IVec S_ 1 := constantI S_ 1 1#1
  let main_v17 : IVec S_ 1 := (fun x v => Host.reduce IntOp.andi x v reducesTo_S128x7_S_d0_1 h_S_) main_v16 main_c_5
  let main_v18 : IVec S_ 1 := andi main_v13 main_v17
  let main_v19 : FVec F S7 .f32 := Host.absf main_arg6
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S50000x1433 .f32) (main_arg1 : IVec S1600000 32) (main_arg2 : IVec S1600000 32) (main_arg3 : FVec F S1433x128 .f32) (main_arg4 : FVec F S128 .f32) (main_arg5 : FVec F S128x7 .f32) (main_arg6 : FVec F S7 .f32) : IVec S_ 1 :=
  let main_v0 : FVec F S50000x1433 .f32 := Host.absf main_arg0
  let main_cst : FVec F S_ .f32 := constant S_ .f32 0x7F800000#32
  let main_v1 : FVec F S50000x1433 .f32 := broadcastInDim S50000x1433 ![] bcast_S_S50000x1433 main_cst
  let main_v2 : IVec S50000x1433 1 := cmpf .olt main_v0 main_v1
  let main_c : IVec S_ 1 := constantI S_ 1 1#1
  let main_v3 : IVec S_ 1 := (fun x v => Host.reduce IntOp.andi x v reducesTo_S50000x1433_S_d0_1 h_S_) main_v2 main_c
  let main_v4 : FVec F S1433x128 .f32 := Host.absf main_arg3
  let main_cst_0 : FVec F S_ .f32 := constant S_ .f32 0x7F800000#32
  let main_v5 : FVec F S1433x128 .f32 := broadcastInDim S1433x128 ![] bcast_S_S1433x128 main_cst_0
  let main_v6 : IVec S1433x128 1 := cmpf .olt main_v4 main_v5
  let main_c_1 : IVec S_ 1 := constantI S_ 1 1#1
  let main_v7 : IVec S_ 1 := (fun x v => Host.reduce IntOp.andi x v reducesTo_S1433x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x7 .f32 := Host.absf main_arg5
  let main_cst_4 : FVec F S_ .f32 := constant S_ .f32 0x7F800000#32
  let main_v15 : FVec F S128x7 .f32 := broadcastInDim S128x7 ![] bcast_S_S128x7 main_cst_4
  let main_v16 : IVec S128x7 1 := cmpf .olt main_v14 main_v15
  fn_part1 (F := F) main_arg6 main_v13 main_v16
-- ==== Kernel.lean ====
abbrev S50000x1433 : Shape := ⟨2, ![50000, 1433]⟩
abbrev S1600000 : Shape := ⟨1, ![1600000]⟩
abbrev S1433x128 : Shape := ⟨2, ![1433, 128]⟩
abbrev S128 : Shape := ⟨1, ![128]⟩
abbrev S128x7 : Shape := ⟨2, ![128, 7]⟩
abbrev S7 : Shape := ⟨1, ![7]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x128 : Shape := ⟨2, ![50000, 128]⟩
abbrev S2000x1433 : Shape := ⟨2, ![2000, 1433]⟩
abbrev S2000x1 : Shape := ⟨2, ![2000, 1]⟩
abbrev S2000x128 : Shape := ⟨2, ![2000, 128]⟩
abbrev S1600000x128 : Shape := ⟨2, ![1600000, 128]⟩
abbrev S1x128 : Shape := ⟨2, ![1, 128]⟩
abbrev S50000x7 : Shape := ⟨2, ![50000, 7]⟩
abbrev S2000x7 : Shape := ⟨2, ![2000, 7]⟩
abbrev S1600000x7 : Shape := ⟨2, ![1600000, 7]⟩
abbrev S1x7 : Shape := ⟨2, ![1, 7]⟩

abbrev nBuf : Space → Nat
  | .hbm => 61
  | .vmem => 28
  | .smem => 0
  | _ => 0

abbrev bufTy : (tb : Table) → Fin (tcTables nBuf tb) → BufTy
  | .hbm, ⟨0, _⟩ => ⟨S50000x1433, .f32⟩
  | .hbm, ⟨1, _⟩ => ⟨S1600000, .i32⟩
  | .hbm, ⟨2, _⟩ => ⟨S1600000, .i32⟩
  | .hbm, ⟨3, _⟩ => ⟨S1433x128, .f32⟩
  | .hbm, ⟨4, _⟩ => ⟨S128, .f32⟩
  | .hbm, ⟨5, _⟩ => ⟨S128x7, .f32⟩
  | .hbm, ⟨6, _⟩ => ⟨S7, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S50000, .f32⟩
  | .hbm, ⟨21, _⟩ => ⟨S1600000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x1, .f32⟩
  | .hbm, ⟨29, _⟩ => ⟨S50000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S50000x128, .f32⟩
  | .hbm, ⟨41, _⟩ => ⟨S1600000x1, .i32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x7, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x7, .f32⟩
  | .hbm, ⟨55, _⟩ => ⟨S_, .f32⟩
  | .hbm, ⟨56, _⟩ => ⟨S50000x7, .f32⟩
  | .hbm, ⟨57, _⟩ => ⟨S1600000x1, .i32⟩
  | .hbm, ⟨58, _⟩ => ⟨S50000x7, .f32⟩
  | .hbm, ⟨59, _⟩ => ⟨S1x7, .f32⟩
  | .hbm, ⟨60, _⟩ => ⟨S50000x7, .f32⟩
  | .local _ .vmem, ⟨0, _⟩ => ⟨S2000x1433, .f32⟩
  | .local _ .vmem, ⟨1, _⟩ => ⟨S2000x1433, .f32⟩
  | .local _ .vmem, ⟨2, _⟩ => ⟨S2000x1, .f32⟩
  | .local _ .vmem, ⟨3, _⟩ => ⟨S2000x1, .f32⟩
  | .local _ .vmem, ⟨4, _⟩ => ⟨S1433x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S128x7, .f32⟩
  | .local _ .vmem, ⟨19, _⟩ => ⟨S2000x7, .f32⟩
  | .local _ .vmem, ⟨20, _⟩ => ⟨S2000x7, .f32⟩
  | .local _ .vmem, ⟨21, _⟩ => ⟨S2000x7, .f32⟩
  | .local _ .vmem, ⟨22, _⟩ => ⟨S2000x7, .f32⟩
  | .local _ .vmem, ⟨23, _⟩ => ⟨S2000x1, .f32⟩
  | .local _ .vmem, ⟨24, _⟩ => ⟨S2000x1, .f32⟩
  | .local _ .vmem, ⟨25, _⟩ => ⟨S1x7, .f32⟩
  | .local _ .vmem, ⟨26, _⟩ => ⟨S2000x7, .f32⟩
  | .local _ .vmem, ⟨27, _⟩ => ⟨S2000x7, .f32⟩
  | _, _ => ⟨S50000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1433x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x7 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x7 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  inb_S2000x1433_S2000x1433_0_0 : ∀ a, (![0, 0] : Fin 2 → Nat) a + S2000x1433.size a ≤ S2000x1433.size a
  h_S2000x1433 : 0 < S2000x1433.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x1433 : S2000x1.Broadcasts S2000x1433
  bitsLt_bf16_f32 : FTy.bits .bf16 < FTy.bits .f32
  inb_S1433x128_S1433x128_0_0 : ∀ a, (![0, 0] : Fin 2 → Nat) a + S1433x128.size a ≤ S1433x128.size a
  h_S1433x128 : 0 < S1433x128.numel
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x7_S128x7_0_0 : ∀ a, (![0, 0] : Fin 2 → Nat) a + S128x7.size a ≤ S128x7.size a
  h_S128x7 : 0 < S128x7.numel
  inb_S2000x7_S2000x7_0_0 : ∀ a, (![0, 0] : Fin 2 → Nat) a + S2000x7.size a ≤ S2000x7.size a
  h_S2000x7 : 0 < S2000x7.numel
  bcast_S_S50000x7 : S_.BroadcastsInDim S50000x7 (![] : Fin 0 → Fin S50000x7.rank)
  shapeCasts_S7_S1x7 : S7.ShapeCasts S1x7
  shapeCasts_S2000x7_S2000x7 : S2000x7.ShapeCasts S2000x7
  broadcasts_S2000x1_S2000x7 : S2000x1.Broadcasts S2000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2000x7 : S1x7.Broadcasts S2000x7
  scatter_S50000_S1600000x1_S1600000_n_0_0_1_wf : ScatterDims.WF S50000 S1600000x1 S1600000 [] [0] [0] 1
  dot_S2000x1433_S1433x128_S2000x128_1_0_0_1_n_n_wf : DotDims.WF S2000x1433 S1433x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x7_S2000x7_1_0_0_1_n_n_wf : DotDims.WF S2000x128 S128x7 S2000x7 [1] [0] [0] [1] [] []
  gather_S50000x7_S1600000x1_S1600000x7_1_0_n_n_0_1_17_wf : GatherDims.WF S50000x7 S1600000x1 S1600000x7 [1] [0] [] [0] [] 1 ![1, 7]
  scatter_S50000x7_S1600000x1_S1600000x7_1_0_0_1_wf : ScatterDims.WF S50000x7 S1600000x1 S1600000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S50000x1433.size a
  hwx0_0 : ∀ i : grid0.Coords, EltTy.bits .f32 = 32 ∨ (Rect.block (s := S50000x1433) S2000x1433.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1433x128.size a ≤ S1433x128.size a
  hwx0_2 : ∀ i : grid0.Coords, EltTy.bits .f32 = 32 ∨ (Rect.block (s := S1433x128) S1433x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x7.size a ≤ S128x7.size a
  hwx2_2 : ∀ i : grid2.Coords, EltTy.bits .f32 = 32 ∨ (Rect.block (s := S128x7) S128x7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x7.size a ≤ S50000x7.size a
  hwx2_3 : ∀ i : grid2.Coords, EltTy.bits .f32 = 32 ∨ (Rect.block (s := S50000x7) S2000x7.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x7.size a ≤ S50000x7.size a
  hwx3_0 : ∀ i : grid3.Coords, EltTy.bits .f32 = 32 ∨ (Rect.block (s := S50000x7) S2000x7.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x7.size a ≤ S1x7.size a
  hwx3_2 : ∀ i : grid3.Coords, EltTy.bits .f32 = 32 ∨ (Rect.block (s := S1x7) S1x7.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x7.size a ≤ S50000x7.size a
  hwx3_3 : ∀ i : grid3.Coords, EltTy.bits .f32 = 32 ∨ (Rect.block (s := S50000x7) S2000x7.size (cc3_transform_3 i) (hinb3_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x1433_S1433x128_S2000x128_1_0_0_1_n_n : DotDims S2000x1433 S1433x128 S2000x128 where
  lhsContracting := [1]
  rhsContracting := [0]
  lhsNonContracting := [0]
  rhsNonContracting := [1]
  lhsBatch := []
  rhsBatch := []
  wf := dot_S2000x1433_S1433x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x7_S2000x7_1_0_0_1_n_n : DotDims S2000x128 S128x7 S2000x7 where
  lhsContracting := [1]
  rhsContracting := [0]
  lhsNonContracting := [0]
  rhsNonContracting := [1]
  lhsBatch := []
  rhsBatch := []
  wf := dot_S2000x128_S128x7_S2000x7_1_0_0_1_n_n_wf
def gather_S50000x7_S1600000x1_S1600000x7_1_0_n_n_0_1_17 : GatherDims S50000x7 S1600000x1 S1600000x7 where
  offsetDims := [1]
  collapsedSliceDims := [0]
  operandBatchingDims := []
  startIndicesBatchingDims := []
  startIndexMap := [0]
  indexVectorDim := 1
  sliceSizes := ![1, 7]
  wf := gather_S50000x7_S1600000x1_S1600000x7_1_0_n_n_0_1_17_wf
def scatter_S50000x7_S1600000x1_S1600000x7_1_0_0_1 : ScatterDims S50000x7 S1600000x1 S1600000x7 where
  updateWindowDims := [1]
  insertedWindowDims := [0]
  scatterDimsToOperandDims := [0]
  indexVectorDim := 1
  wf := scatter_S50000x7_S1600000x1_S1600000x7_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1433x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S2000x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S2000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x7.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S2000x7.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x1433 : Shape := ⟨2, ![50000, 1433]⟩
abbrev S1600000 : Shape := ⟨1, ![1600000]⟩
abbrev S1433x128 : Shape := ⟨2, ![1433, 128]⟩
abbrev S128 : Shape := ⟨1, ![128]⟩
abbrev S128x7 : Shape := ⟨2, ![128, 7]⟩
abbrev S7 : Shape := ⟨1, ![7]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x128 : Shape := ⟨2, ![50000, 128]⟩
abbrev S1600000x128 : Shape := ⟨2, ![1600000, 128]⟩
abbrev S1x128 : Shape := ⟨2, ![1, 128]⟩
abbrev S50000x7 : Shape := ⟨2, ![50000, 7]⟩
abbrev S1600000x7 : Shape := ⟨2, ![1600000, 7]⟩
abbrev S1x7 : Shape := ⟨2, ![1, 7]⟩

abbrev nBuf : Space → Nat
  | .hbm => 76
  | .vmem => 0
  | .smem => 0
  | _ => 0

abbrev bufTy : (tb : Table) → Fin (tcTables nBuf tb) → BufTy
  | .hbm, ⟨0, _⟩ => ⟨S50000x1433, .f32⟩
  | .hbm, ⟨1, _⟩ => ⟨S1600000, .i32⟩
  | .hbm, ⟨2, _⟩ => ⟨S1600000, .i32⟩
  | .hbm, ⟨3, _⟩ => ⟨S1433x128, .f32⟩
  | .hbm, ⟨4, _⟩ => ⟨S128, .f32⟩
  | .hbm, ⟨5, _⟩ => ⟨S128x7, .f32⟩
  | .hbm, ⟨6, _⟩ => ⟨S7, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S50000, .f32⟩
  | .hbm, ⟨21, _⟩ => ⟨S1600000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x1433, .f32⟩
  | .hbm, ⟨29, _⟩ => ⟨S50000x1433, .f32⟩
  | .hbm, ⟨30, _⟩ => ⟨S50000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S50000x128, .f32⟩
  | .hbm, ⟨42, _⟩ => ⟨S1600000x1, .i32⟩
  | .hbm, ⟨43, _⟩ => ⟨S50000x128, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S50000x1, .f32⟩
  | .hbm, ⟨54, _⟩ => ⟨S50000x128, .f32⟩
  | .hbm, ⟨55, _⟩ => ⟨S50000x128, .f32⟩
  | .hbm, ⟨56, _⟩ => ⟨S50000x7, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x7, .f32⟩
  | .hbm, ⟨66, _⟩ => ⟨S_, .f32⟩
  | .hbm, ⟨67, _⟩ => ⟨S50000x7, .f32⟩
  | .hbm, ⟨68, _⟩ => ⟨S1600000x1, .i32⟩
  | .hbm, ⟨69, _⟩ => ⟨S50000x7, .f32⟩
  | .hbm, ⟨70, _⟩ => ⟨S50000x1, .f32⟩
  | .hbm, ⟨71, _⟩ => ⟨S50000x7, .f32⟩
  | .hbm, ⟨72, _⟩ => ⟨S50000x7, .f32⟩
  | .hbm, ⟨73, _⟩ => ⟨S1x7, .f32⟩
  | .hbm, ⟨74, _⟩ => ⟨S50000x7, .f32⟩
  | .hbm, ⟨75, _⟩ => ⟨S50000x7, .f32⟩
  | _, _ => ⟨S50000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x1433_0_1 : S50000x1.BroadcastsInDim S50000x1433 (![0, 1] : Fin 2 → Fin S50000x1433.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x7 : S_.BroadcastsInDim S50000x7 (![] : Fin 0 → Fin S50000x7.rank)
  bcast_S50000x1_S50000x7_0_1 : S50000x1.BroadcastsInDim S50000x7 (![0, 1] : Fin 2 → Fin S50000x7.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  scatter_S50000_S1600000x1_S1600000_n_0_0_1_wf : ScatterDims.WF S50000 S1600000x1 S1600000 [] [0] [0] 1
  dot_S50000x1433_S1433x128_S50000x128_1_0_0_1_n_n_wf : DotDims.WF S50000x1433 S1433x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x7_S50000x7_1_0_0_1_n_n_wf : DotDims.WF S50000x128 S128x7 S50000x7 [1] [0] [0] [1] [] []
  gather_S50000x7_S1600000x1_S1600000x7_1_0_n_n_0_1_17_wf : GatherDims.WF S50000x7 S1600000x1 S1600000x7 [1] [0] [] [0] [] 1 ![1, 7]
  scatter_S50000x7_S1600000x1_S1600000x7_1_0_0_1_wf : ScatterDims.WF S50000x7 S1600000x1 S1600000x7 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x1433_S1433x128_S50000x128_1_0_0_1_n_n : DotDims S50000x1433 S1433x128 S50000x128 where
  lhsContracting := [1]
  rhsContracting := [0]
  lhsNonContracting := [0]
  rhsNonContracting := [1]
  lhsBatch := []
  rhsBatch := []
  wf := dot_S50000x1433_S1433x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x7_S50000x7_1_0_0_1_n_n : DotDims S50000x128 S128x7 S50000x7 where
  lhsContracting := [1]
  rhsContracting := [0]
  lhsNonContracting := [0]
  rhsNonContracting := [1]
  lhsBatch := []
  rhsBatch := []
  wf := dot_S50000x128_S128x7_S50000x7_1_0_0_1_n_n_wf
def gather_S50000x7_S1600000x1_S1600000x7_1_0_n_n_0_1_17 : GatherDims S50000x7 S1600000x1 S1600000x7 where
  offsetDims := [1]
  collapsedSliceDims := [0]
  operandBatchingDims := []
  startIndicesBatchingDims := []
  startIndexMap := [0]
  indexVectorDim := 1
  sliceSizes := ![1, 7]
  wf := gather_S50000x7_S1600000x1_S1600000x7_1_0_n_n_0_1_17_wf
def scatter_S50000x7_S1600000x1_S1600000x7_1_0_0_1 : ScatterDims S50000x7 S1600000x1 S1600000x7 where
  updateWindowDims := [1]
  insertedWindowDims := [0]
  scatterDimsToOperandDims := [0]
  indexVectorDim := 1
  wf := scatter_S50000x7_S1600000x1_S1600000x7_1_0_0_1_wf

class Facts : Prop extends Facts₀ where

variable [Facts]
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a `[1, 1]` array's one element taken at position `(0, 0)` is the array at `(0, 0)`;
  • the vector exponential read at an index is the exponential of the operand's entry (on the extended reals);
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array taken at position `(0, 0)`. -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- On the extended reals the vector exponential, read at an index, is the exponential of the operand's entry there. -/
theorem exp_apply {s : Shape} {φ : FTy} (x : FVec Ideal s φ) (i : s.Idx) : exp x i = Ideal.exp (x i) := rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.Pivot.lean ====
/-
  The three functions the two programs are compared through, index by index on the extended reals.

  A graph-convolution layer here is: scale every row r of a matrix by a per-row factor n(r) (the inverse square root
  of a node's clamped degree), multiply by a weight matrix, sum the rows along the edges, scale every row by a second
  per-row factor and add a bias row (and, for the hidden layer, clamp below at zero).
  • `scaleDot x n w` at (r, c) is the sum over k of (x(r, k) · n(r)) · w(k, c);
  • `scaleBias a n b` at (r, c) is a(r, c) · n(r) + b(c);
  • `scaleBiasRelu a n b` at (r, c) is the larger of that and zero.
  The per-row factor is carried as a one-column matrix and the bias as a one-row matrix, as both programs hold them.

  Each function is shown to be (1) what the vector unit's body computes from its blocks, (2) what the host's
  operations compute from whole arrays, and (3) compatible with cutting the rows into blocks: a block of rows of the
  result depends only on the same rows of the row-indexed operands.
-/
import Idealize.ShloMosaic.PureOps.Ideal
import Idealize.ShloMosaic.PureOps.Ideal.Laws
import Idealize.ShloMosaic.Lib.ValueIdx
import Idealize.ShloMosaic.Lib.Pipeline.Value
import proofs.«125507_j24232205484470_1_alg».proof.Proof.LibDot
import proofs.«125507_j24232205484470_1_alg».proof.Proof.LibKeepdims

noncomputable section

open scoped BigOperators

namespace Cert.GcnPivot

open Idealize.ShloMosaic Idealize.ShloMosaic.ValueIdx

variable {R K C : ℕ}

/-- Rows scaled by a per-row factor, then multiplied by the weights. -/
def scaleDot (x : FVec Ideal ⟨2, ![R, K]⟩ .f32) (n : FVec Ideal ⟨2, ![R, 1]⟩ .f32) (w : FVec Ideal ⟨2, ![K, C]⟩ .f32) :
    FVec Ideal ⟨2, ![R, C]⟩ .f32 :=
  fun j => ∑ k : Fin K, (x (ix2 (j 0) k) * n (ix2 (j 0) (0 : Fin 1))) * w (ix2 k (j 1))

/-- Rows scaled by a per-row factor, plus a bias row. -/
def scaleBias (a : FVec Ideal ⟨2, ![R, C]⟩ .f32) (n : FVec Ideal ⟨2, ![R, 1]⟩ .f32) (b : FVec Ideal ⟨2, ![1, C]⟩ .f32) :
    FVec Ideal ⟨2, ![R, C]⟩ .f32 :=
  fun j => a (ix2 (j 0) (j 1)) * n (ix2 (j 0) (0 : Fin 1)) + b (ix2 (0 : Fin 1) (j 1))

/-- The same, clamped below at zero. -/
def scaleBiasRelu (a : FVec Ideal ⟨2, ![R, C]⟩ .f32) (n : FVec Ideal ⟨2, ![R, 1]⟩ .f32) (b : FVec Ideal ⟨2, ![1, C]⟩ .f32) :
    FVec Ideal ⟨2, ![R, C]⟩ .f32 :=
  fun j => max (a (ix2 (j 0) (j 1)) * n (ix2 (j 0) (0 : Fin 1)) + b (ix2 (0 : Fin 1) (j 1))) (Ideal.ofBits .f32 0x00000000#32)

theorem scaleDot_at (x : FVec Ideal ⟨2, ![R, K]⟩ .f32) (n : FVec Ideal ⟨2, ![R, 1]⟩ .f32) (w : FVec Ideal ⟨2, ![K, C]⟩ .f32)
    (p : Fin R) (q : Fin C) :
    scaleDot x n w (ix2 p q) = ∑ k : Fin K, (x (ix2 p k) * n (ix2 p (0 : Fin 1))) * w (ix2 k q) := rfl

theorem scaleBias_at (a : FVec Ideal ⟨2, ![R, C]⟩ .f32) (n : FVec Ideal ⟨2, ![R, 1]⟩ .f32) (b : FVec Ideal ⟨2, ![1, C]⟩ .f32)
    (p : Fin R) (q : Fin C) :
    scaleBias a n b (ix2 p q) = a (ix2 p q) * n (ix2 p (0 : Fin 1)) + b (ix2 (0 : Fin 1) q) := rfl

theorem scaleBiasRelu_at (a : FVec Ideal ⟨2, ![R, C]⟩ .f32) (n : FVec Ideal ⟨2, ![R, 1]⟩ .f32) (b : FVec Ideal ⟨2, ![1, C]⟩ .f32)
    (p : Fin R) (q : Fin C) :
    scaleBiasRelu a n b (ix2 p q)
      = max (a (ix2 p q) * n (ix2 p (0 : Fin 1)) + b (ix2 (0 : Fin 1) q)) (Ideal.ofBits .f32 0x00000000#32) := rfl

/-! ## A one-row matrix broadcast down the rows -/

/-- A row `[1, b]` broadcast to `[a, b]` reads, at (p, q), the row's entry of column q. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A column `[a, 1]` placed by `broadcast_in_dim` along both axes of `[a, b]` reads, at (p, q), the column's entry of row p. -/
theorem broadcastInDim_a1_ab_apply {α : Type} {a b : ℕ} (v : (⟨2, ![a, 1]⟩ : Shape).Idx → α)
    (h : (⟨2, ![a, 1]⟩ : Shape).BroadcastsInDim (⟨2, ![a, b]⟩ : Shape) ![0, 1]) (p : Fin a) (q : Fin b) :
    broadcastInDim (⟨2, ![a, b]⟩ : Shape) ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ => rfl

/-- A row `[1, b]` placed by `broadcast_in_dim` along both axes of `[a, b]` reads, at (p, q), the row's entry of column q. -/
theorem broadcastInDim_1b_ab_apply {α : Type} {a b : ℕ} (v : (⟨2, ![1, b]⟩ : Shape).Idx → α)
    (h : (⟨2, ![1, b]⟩ : Shape).BroadcastsInDim (⟨2, ![a, b]⟩ : Shape) ![0, 1]) (p : Fin a) (q : Fin b) :
    broadcastInDim (⟨2, ![a, b]⟩ : Shape) ![0, 1] h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-! ## What the vector unit's bodies compute -/

/-- The scaling body: the block times the broadcast column, both operands narrowed (the identity on the extended
    reals), multiplied into a zero accumulator. -/
theorem body_scaleDot (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ .f32) (n : FVec Ideal ⟨2, ![R, 1]⟩ .f32) (w : FVec Ideal ⟨2, ![K, C]⟩ .f32)
    (hc : (⟨2, ![R, 1]⟩ : Shape).ShapeCasts ⟨2, ![R, 1]⟩) (hb : (⟨2, ![R, 1]⟩ : Shape).Broadcasts ⟨2, ![R, K]⟩)
    (h1 : FTy.bf16.bits < FTy.f32.bits) :
    matmul d none (truncf .bf16 (mulf x (broadcastTo ⟨2, ![R, K]⟩ (shapeCast ⟨2, ![R, 1]⟩ n hc) hb)) h1) (truncf .bf16 w h1)
      (constant ⟨2, ![R, C]⟩ .f32 0x00000000#32) = scaleDot x n w := by
  funext j
  obtain ⟨p, q, rfl⟩ : ∃ (p : Fin R) (q : Fin C), j = ix2 p q := ⟨j 0, j 1, eq_ix2 j⟩
  rw [scaleDot_at]
  refine (LibDot.matmul_zero_at d hl hr hln hrn hlb hrb none _ _ p q).trans ?_
  refine Finset.sum_congr rfl fun k _ => ?_
  rw [truncf_apply, truncf_apply, mulf_apply, broadcastTo_a1_ab_apply, shapeCast_self]

/-- The bias body: the block times the broadcast column plus the broadcast row. -/
theorem body_scaleBias (a : FVec Ideal ⟨2, ![R, C]⟩ .f32) (n : FVec Ideal ⟨2, ![R, 1]⟩ .f32) (b : FVec Ideal ⟨2, ![1, C]⟩ .f32)
    (ha : (⟨2, ![R, C]⟩ : Shape).ShapeCasts ⟨2, ![R, C]⟩) (hc : (⟨2, ![R, 1]⟩ : Shape).ShapeCasts ⟨2, ![R, 1]⟩)
    (hbn : (⟨2, ![R, 1]⟩ : Shape).Broadcasts ⟨2, ![R, C]⟩) (hr : (⟨2, ![1, C]⟩ : Shape).ShapeCasts ⟨2, ![1, C]⟩)
    (hbb : (⟨2, ![1, C]⟩ : Shape).Broadcasts ⟨2, ![R, C]⟩) :
    addf (mulf (shapeCast ⟨2, ![R, C]⟩ a ha) (broadcastTo ⟨2, ![R, C]⟩ (shapeCast ⟨2, ![R, 1]⟩ n hc) hbn))
      (broadcastTo ⟨2, ![R, C]⟩ (shapeCast ⟨2, ![1, C]⟩ b hr) hbb) = scaleBias a n b := by
  funext j
  obtain ⟨p, q, rfl⟩ : ∃ (p : Fin R) (q : Fin C), j = ix2 p q := ⟨j 0, j 1, eq_ix2 j⟩
  rw [scaleBias_at, addf_apply, mulf_apply, broadcastTo_a1_ab_apply, broadcastTo_1b_ab_apply, shapeCast_self, shapeCast_self,
    shapeCast_self]

/-- The bias body followed by the clamp at zero. -/
theorem body_scaleBiasRelu (a : FVec Ideal ⟨2, ![R, C]⟩ .f32) (n : FVec Ideal ⟨2, ![R, 1]⟩ .f32) (b : FVec Ideal ⟨2, ![1, C]⟩ .f32)
    (ha : (⟨2, ![R, C]⟩ : Shape).ShapeCasts ⟨2, ![R, C]⟩) (hc : (⟨2, ![R, 1]⟩ : Shape).ShapeCasts ⟨2, ![R, 1]⟩)
    (hbn : (⟨2, ![R, 1]⟩ : Shape).Broadcasts ⟨2, ![R, C]⟩) (hr : (⟨2, ![1, C]⟩ : Shape).ShapeCasts ⟨2, ![1, C]⟩)
    (hbb : (⟨2, ![1, C]⟩ : Shape).Broadcasts ⟨2, ![R, C]⟩) :
    maximumf (addf (mulf (shapeCast ⟨2, ![R, C]⟩ a ha) (broadcastTo ⟨2, ![R, C]⟩ (shapeCast ⟨2, ![R, 1]⟩ n hc) hbn))
      (broadcastTo ⟨2, ![R, C]⟩ (shapeCast ⟨2, ![1, C]⟩ b hr) hbb))
      (broadcast ⟨2, ![R, C]⟩ (Scalar.ofBits (F := Ideal) .f32 0x00000000#32)) = scaleBiasRelu a n b := by
  funext j
  obtain ⟨p, q, rfl⟩ : ∃ (p : Fin R) (q : Fin C), j = ix2 p q := ⟨j 0, j 1, eq_ix2 j⟩
  rw [scaleBiasRelu_at, maximumf_apply, body_scaleBias a n b ha hc hbn hr hbb, scaleBias_at, broadcast_apply]
  rfl

/-! ## What the host's operations compute -/

/-- The host's layer: the array times the column placed along both axes, then the host's product. -/
theorem host_scaleDot (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ .f32) (n : FVec Ideal ⟨2, ![R, 1]⟩ .f32) (w : FVec Ideal ⟨2, ![K, C]⟩ .f32)
    (hb : (⟨2, ![R, 1]⟩ : Shape).BroadcastsInDim (⟨2, ![R, K]⟩ : Shape) ![0, 1]) :
    Host.dotGeneral d none (mulf x (broadcastInDim (⟨2, ![R, K]⟩ : Shape) ![0, 1] hb n)) w = scaleDot x n w := by
  funext j
  obtain ⟨p, q, rfl⟩ : ∃ (p : Fin R) (q : Fin C), j = ix2 p q := ⟨j 0, j 1, eq_ix2 j⟩
  rw [scaleDot_at]
  refine (LibDot.dotGeneral_at d hl hr hln hrn hlb hrb none .single _ _ p q).trans ?_
  refine Finset.sum_congr rfl fun k _ => ?_
  rw [mulf_apply, broadcastInDim_a1_ab_apply]

/-- The host's scaling and bias. -/
theorem host_scaleBias (a : FVec Ideal ⟨2, ![R, C]⟩ .f32) (n : FVec Ideal ⟨2, ![R, 1]⟩ .f32) (b : FVec Ideal ⟨2, ![1, C]⟩ .f32)
    (hbn : (⟨2, ![R, 1]⟩ : Shape).BroadcastsInDim (⟨2, ![R, C]⟩ : Shape) ![0, 1])
    (hbb : (⟨2, ![1, C]⟩ : Shape).BroadcastsInDim (⟨2, ![R, C]⟩ : Shape) ![0, 1]) :
    addf (mulf a (broadcastInDim (⟨2, ![R, C]⟩ : Shape) ![0, 1] hbn n)) (broadcastInDim (⟨2, ![R, C]⟩ : Shape) ![0, 1] hbb b)
      = scaleBias a n b := by
  funext j
  obtain ⟨p, q, rfl⟩ : ∃ (p : Fin R) (q : Fin C), j = ix2 p q := ⟨j 0, j 1, eq_ix2 j⟩
  rw [scaleBias_at, addf_apply, mulf_apply, broadcastInDim_a1_ab_apply, broadcastInDim_1b_ab_apply]

/-- The host's scaling and bias under its clamp: the larger of the value and a zero array. -/
theorem host_scaleBiasRelu (a : FVec Ideal ⟨2, ![R, C]⟩ .f32) (n : FVec Ideal ⟨2, ![R, 1]⟩ .f32) (b : FVec Ideal ⟨2, ![1, C]⟩ .f32)
    (hbn : (⟨2, ![R, 1]⟩ : Shape).BroadcastsInDim (⟨2, ![R, C]⟩ : Shape) ![0, 1])
    (hbb : (⟨2, ![1, C]⟩ : Shape).BroadcastsInDim (⟨2, ![R, C]⟩ : Shape) ![0, 1])
    (z : FVec Ideal ⟨2, ![R, C]⟩ .f32) (hz : ∀ i, z i = Ideal.ofBits .f32 0x00000000#32) :
    maximumf (addf (mulf a (broadcastInDim (⟨2, ![R, C]⟩ : Shape) ![0, 1] hbn n))
      (broadcastInDim (⟨2, ![R, C]⟩ : Shape) ![0, 1] hbb b)) z = scaleBiasRelu a n b := by
  funext j
  obtain ⟨p, q, rfl⟩ : ∃ (p : Fin R) (q : Fin C), j = ix2 p q := ⟨j 0, j 1, eq_ix2 j⟩
  rw [scaleBiasRelu_at, maximumf_apply, host_scaleBias a n b hbn hbb, scaleBias_at, hz]

/-! ## Cutting the rows into blocks -/

variable {r : ℕ}

/-- A block of rows of `scaleDot`: if the block `xb`, `nb` holds rows `o, o+1, …` of `x`, `n`, then `scaleDot xb nb w` holds
    the same rows of `scaleDot x n w`. -/
theorem scaleDot_rows (x : FVec Ideal ⟨2, ![R, K]⟩ .f32) (n : FVec Ideal ⟨2, ![R, 1]⟩ .f32) (w : FVec Ideal ⟨2, ![K, C]⟩ .f32)
    (xb : FVec Ideal ⟨2, ![r, K]⟩ .f32) (nb : FVec Ideal ⟨2, ![r, 1]⟩ .f32) (p : Fin r) (p' : Fin R) (q : Fin C)
    (hx : ∀ k : Fin K, xb (ix2 p k) = x (ix2 p' k)) (hn : nb (ix2 p (0 : Fin 1)) = n (ix2 p' (0 : Fin 1))) :
    scaleDot xb nb w (ix2 p q) = scaleDot x n w (ix2 p' q) := by
  rw [scaleDot_at, scaleDot_at]
  refine Finset.sum_congr rfl fun k _ => ?_
  rw [hx k, hn]

theorem scaleBias_rows (a : FVec Ideal ⟨2, ![R, C]⟩ .f32) (n : FVec Ideal ⟨2, ![R, 1]⟩ .f32) (b : FVec Ideal ⟨2, ![1, C]⟩ .f32)
    (ab : FVec Ideal ⟨2, ![r, C]⟩ .f32) (nb : FVec Ideal ⟨2, ![r, 1]⟩ .f32) (p : Fin r) (p' : Fin R) (q : Fin C)
    (ha : ab (ix2 p q) = a (ix2 p' q)) (hn : nb (ix2 p (0 : Fin 1)) = n (ix2 p' (0 : Fin 1))) :
    scaleBias ab nb b (ix2 p q) = scaleBias a n b (ix2 p' q) := by
  rw [scaleBias_at, scaleBias_at, ha, hn]

theorem scaleBiasRelu_rows (a : FVec Ideal ⟨2, ![R, C]⟩ .f32) (n : FVec Ideal ⟨2, ![R, 1]⟩ .f32) (b : FVec Ideal ⟨2, ![1, C]⟩ .f32)
    (ab : FVec Ideal ⟨2, ![r, C]⟩ .f32) (nb : FVec Ideal ⟨2, ![r, 1]⟩ .f32) (p : Fin r) (p' : Fin R) (q : Fin C)
    (ha : ab (ix2 p q) = a (ix2 p' q)) (hn : nb (ix2 p (0 : Fin 1)) = n (ix2 p' (0 : Fin 1))) :
    scaleBiasRelu ab nb b (ix2 p q) = scaleBiasRelu a n b (ix2 p' q) := by
  rw [scaleBiasRelu_at, scaleBiasRelu_at, ha, hn]

end Cert.GcnPivot

end
-- ==== Proof.Val0.lean ====
/-
  Region 0 (the first layer's scaled product), at any contents `V` of the buffers when the region is entered.

  The grid has 25 points; point t works on rows 2000·t … 2000·t + 1999 of the feature matrix and of the column of
  per-row factors, and on the whole weight matrix, and writes rows 2000·t … 2000·t + 1999 of the result. Its body
  leaves in the result's block `scaleDot` of the three input blocks; since a block of rows of `scaleDot` depends only on
  the same rows of its row-indexed operands, what point t writes back is block t of `scaleDot` of the whole arrays, and
  the 25 blocks cover the array: after the region the result array is `scaleDot` of the three arrays.
-/
import proofs.«125507_j24232205484470_1_alg».proof.Proof.Gen.KernelIdeal.Frame
import proofs.«125507_j24232205484470_1_alg».proof.Proof.Pivot
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Val0

open Cert.KernelIdeal Cert.KernelIdeal.Gen Cert.GcnPivot

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, at their literal types. -/
abbrev xarr (c : Dev nD) : FVec Ideal ⟨2, ![50000, 1433]⟩ .f32 := V c main_arg0
abbrev narr (c : Dev nD) : FVec Ideal ⟨2, ![50000, 1]⟩ .f32 := V c main_v14
abbrev warr (c : Dev nD) : FVec Ideal ⟨2, ![1433, 128]⟩ .f32 := V c main_arg3

/-- The body's value: the scaled product of its three loaded blocks. -/
theorem pay_eq (x0 : Vec Ideal S2000x1433 .f32) (x1 : Vec Ideal S2000x1 .f32) (x2 : Vec Ideal S1433x128 .f32) :
    k0_pay1 x0 x1 x2 = scaleDot (R := 2000) (K := 1433) (C := 128) x0 x1 x2 := by
  unfold k0_pay1
  exact body_scaleDot dot_S2000x1433_S1433x128_S2000x128_1_0_0_1_n_n rfl rfl rfl rfl rfl rfl x0 x1 x2 _ _ _

/-- The index maps over the grid: the row-indexed windows are at block row t, the weights at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's feature block is row 2000·t + p of the feature matrix. -/
theorem xblk_read (c : Dev nD) (t : Fin cfg0.N) (p : Fin 2000) (k : Fin 1433) (p' : Fin 50000) (hp : p'.val = 2000 * t.val + p.val) :
    (iblk0 V c 0 t : FVec Ideal ⟨2, ![2000, 1433]⟩ .f32) (ix2 p k) = xarr V c (ix2 p' k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = p'.val; rw [e0, hp]; omega
  | ⟨1, _⟩ => show win0_0.index t (1 : Fin 2) * 1433 + 1 * k.val = k.val; rw [e1]; omega

/-- Row p of point t's block of per-row factors is row 2000·t + p of the column. -/
theorem nblk_read (c : Dev nD) (t : Fin cfg0.N) (p : Fin 2000) (p' : Fin 50000) (hp : p'.val = 2000 * t.val + p.val) :
    (iblk0 V c 1 t : FVec Ideal ⟨2, ![2000, 1]⟩ .f32) (ix2 p (0 : Fin 1)) = narr V c (ix2 p' (0 : Fin 1)) := by
  obtain ⟨-, -, e0, e1, -⟩ := idx_facts t
  unfold iblk0
  rw [View.read_apply]
  show V c main_v14 _ = V c main_v14 _
  refine congrArg (V c main_v14) (funext fun a => Fin.ext ?_)
  match a with
  | ⟨0, _⟩ => show win0_1.index t (0 : Fin 2) * 2000 + 1 * p.val = p'.val; rw [e0, hp]; omega
  | ⟨1, _⟩ => show win0_1.index t (1 : Fin 2) * 1 + 1 * 0 = 0; rw [e1]

/-- Every point's weight block is the whole weight matrix. -/
theorem wblk_read (c : Dev nD) (t : Fin cfg0.N) :
    (iblk0 V c 2 t : FVec Ideal ⟨2, ![1433, 128]⟩ .f32) = warr V c := by
  obtain ⟨-, -, -, -, e0, e1, -⟩ := idx_facts t
  funext y
  unfold iblk0
  rw [View.read_apply]
  show V c main_arg3 _ = V c main_arg3 _
  refine congrArg (V c main_arg3) (funext fun a => Fin.ext ?_)
  match a with
  | ⟨0, _⟩ => show win0_2.index t (0 : Fin 2) * 1433 + 1 * (y 0).val = (y 0).val; rw [e0]; omega
  | ⟨1, _⟩ => show win0_2.index t (1 : Fin 2) * 128 + 1 * (y 1).val = (y 1).val; rw [e1]; omega

/-- What point t writes back is block t of the scaled product of the whole arrays. -/
theorem flushed_eq (c : Dev nD) (t : Fin cfg0.N) :
    (dat0 V c).flushed 3 t = ((cfg0.win 3).blk t).view.read (Elt Ideal) (scaleDot (xarr V c) (narr V c) (warr V c)) := by
  show (cfg0.win 3).cut (grid0.coords t) ((dat0 V c).after 3 t) = _
  rw [after0_3]
  unfold out0_3
  rw [View.canon_unit_zero hz]
  simp only [View.ld_unit_zero (S := S2000x1433) hz, View.ld_unit_zero (S := S2000x1) hz, View.ld_unit_zero (S := S1433x128) hz]
  rw [pay_eq]
  obtain ⟨-, -, -, -, -, -, e0, e1⟩ := idx_facts t
  funext j
  obtain ⟨p, q, rfl⟩ : ∃ (p : Fin 2000) (q : Fin 128), j = ix2 p q := ⟨j 0, j 1, eq_ix2 j⟩
  have hlt : 2000 * t.val + p.val < 50000 := by have := t.isLt; have := p.isLt; have : cfg0.N = 25 := rfl; omega
  have hemb : ((cfg0.win 3).blk t).view.emb (ix2 p q) = ix2 (⟨2000 * t.val + p.val, hlt⟩ : Fin 50000) q := by
    funext a; apply Fin.ext
    match a with
    | ⟨0, _⟩ => show win0_3.index t (0 : Fin 2) * 2000 + 1 * p.val = 2000 * t.val + p.val; rw [e0]; omega
    | ⟨1, _⟩ => show win0_3.index t (1 : Fin 2) * 128 + 1 * q.val = q.val; rw [e1]; omega
  show scaleDot (R := 2000) (K := 1433) (C := 128) (iblk0 V c 0 t) (iblk0 V c 1 t) (iblk0 V c 2 t) (ix2 p q)
    = scaleDot (xarr V c) (narr V c) (warr V c) (((cfg0.win 3).blk t).view.emb (ix2 p q))
  rw [hemb, wblk_read V c t]
  exact scaleDot_rows (xarr V c) (narr V c) (warr V c) _ _ p ⟨2000 * t.val + p.val, hlt⟩ q
    (fun k => xblk_read V c t p k _ rfl) (nblk_read V c t p _ rfl)

/-- An index of the result array is in point t's block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v16).slice (win0_3.rect t)).set ↔ _
  rw [View.set_slice_whole, Rect.mem_set_unit]
  exact Iff.rfl

/-- Row r of the result lies in the block of point r / 2000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := rfl
  refine ⟨⟨(i 0).val / 2000, by rw [hN]; omega⟩, flush0_3 _, ?_⟩
  obtain ⟨-, -, -, -, -, -, e0, e1⟩ := idx_facts ⟨(i 0).val / 2000, by rw [hN]; omega⟩
  rw [mem_blk]
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e1]; omega

/-- After the region the result array is the scaled product of the three arrays as the region found them. -/
theorem final (c : Dev nD) :
    (dat0 V c).arrAt 3 cfg0.N = scaleDot (xarr V c) (narr V c) (warr V c) :=
  (dat0 V c).arrAt_eq_of_cover 3 (scaleDot (xarr V c) (narr V c) (warr V c)) (fun t _ => flushed_eq V c t) cover

end Cert.KernelIdeal.Val0

end
-- ==== Proof.Val1.lean ====
/-
  Region 1 (the first layer's degree scaling, bias and clamp), at any contents `V` of the buffers when the region is
  entered.

  Point t of the 25 works on rows 2000·t … 2000·t + 1999 of the summed messages and of the column of per-row
  factors, and on the whole bias row, and writes the same rows of the result. Its body leaves `scaleBiasRelu` of its
  three blocks; an entry of `scaleBiasRelu` depends on its own entry of the matrix, its row's factor and its column's
  bias, so what point t writes back is block t of `scaleBiasRelu` of the whole arrays, and the blocks cover the array.
-/
import proofs.«125507_j24232205484470_1_alg».proof.Proof.Gen.KernelIdeal.Frame
import proofs.«125507_j24232205484470_1_alg».proof.Proof.Pivot
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Val1

open Cert.KernelIdeal Cert.KernelIdeal.Gen Cert.GcnPivot

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, at their literal types. -/
abbrev aarr (c : Dev nD) : FVec Ideal ⟨2, ![50000, 128]⟩ .f32 := V c main_v26
abbrev narr (c : Dev nD) : FVec Ideal ⟨2, ![50000, 1]⟩ .f32 := V c main_v15
abbrev barr (c : Dev nD) : FVec Ideal ⟨2, ![1, 128]⟩ .f32 := V c main_v27

/-- The body's value: scaling, bias and clamp of its three loaded blocks. -/
theorem pay_eq (x0 : Vec Ideal S2000x128 .f32) (x1 : Vec Ideal S2000x1 .f32) (x2 : Vec Ideal S1x128 .f32) :
    k1_pay1 x0 x1 x2 = scaleBiasRelu (R := 2000) (C := 128) x0 x1 x2 := by
  unfold k1_pay1
  exact body_scaleBiasRelu x0 x1 x2 _ _ _ _ _

/-- The index maps over the grid: the row-indexed windows are at block row t, the bias row at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block of summed messages is row 2000·t + p of the array. -/
theorem ablk_read (c : Dev nD) (t : Fin cfg1.N) (p : Fin 2000) (q : Fin 128) (p' : Fin 50000) (hp : p'.val = 2000 * t.val + p.val) :
    (iblk1 V c 0 t : FVec Ideal ⟨2, ![2000, 128]⟩ .f32) (ix2 p q) = aarr V c (ix2 p' q) := by
  obtain ⟨e0, e1, -⟩ := idx_facts t
  unfold iblk1
  rw [View.read_apply]
  show V c main_v26 _ = V c main_v26 _
  refine congrArg (V c main_v26) (funext fun a => Fin.ext ?_)
  match a with
  | ⟨0, _⟩ => show win1_0.index t (0 : Fin 2) * 2000 + 1 * p.val = p'.val; rw [e0, hp]; omega
  | ⟨1, _⟩ => show win1_0.index t (1 : Fin 2) * 128 + 1 * q.val = q.val; rw [e1]; omega

/-- Row p of point t's block of per-row factors is row 2000·t + p of the column. -/
theorem nblk_read (c : Dev nD) (t : Fin cfg1.N) (p : Fin 2000) (p' : Fin 50000) (hp : p'.val = 2000 * t.val + p.val) :
    (iblk1 V c 1 t : FVec Ideal ⟨2, ![2000, 1]⟩ .f32) (ix2 p (0 : Fin 1)) = narr V c (ix2 p' (0 : Fin 1)) := by
  obtain ⟨-, -, e0, e1, -⟩ := idx_facts t
  unfold iblk1
  rw [View.read_apply]
  show V c main_v15 _ = V c main_v15 _
  refine congrArg (V c main_v15) (funext fun a => Fin.ext ?_)
  match a with
  | ⟨0, _⟩ => show win1_1.index t (0 : Fin 2) * 2000 + 1 * p.val = p'.val; rw [e0, hp]; omega
  | ⟨1, _⟩ => show win1_1.index t (1 : Fin 2) * 1 + 1 * 0 = 0; rw [e1]

/-- Every point's bias block is the whole bias row. -/
theorem bblk_read (c : Dev nD) (t : Fin cfg1.N) :
    (iblk1 V c 2 t : FVec Ideal ⟨2, ![1, 128]⟩ .f32) = barr V c := by
  obtain ⟨-, -, -, -, e0, e1, -⟩ := idx_facts t
  funext y
  unfold iblk1
  rw [View.read_apply]
  show V c main_v27 _ = V c main_v27 _
  refine congrArg (V c main_v27) (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- What point t writes back is block t of the scaled, biased and clamped whole array. -/
theorem flushed_eq (c : Dev nD) (t : Fin cfg1.N) :
    (dat1 V c).flushed 3 t = ((cfg1.win 3).blk t).view.read (Elt Ideal) (scaleBiasRelu (aarr V c) (narr V c) (barr V c)) := by
  show (cfg1.win 3).cut (grid1.coords t) ((dat1 V c).after 3 t) = _
  rw [after1_3]
  unfold out1_3
  rw [View.canon_unit_zero hz]
  simp only [View.ld_unit_zero (S := S2000x128) hz, View.ld_unit_zero (S := S2000x1) hz, View.ld_unit_zero (S := S1x128) hz]
  rw [pay_eq]
  obtain ⟨-, -, -, -, -, -, e0, e1⟩ := idx_facts t
  funext j
  obtain ⟨p, q, rfl⟩ : ∃ (p : Fin 2000) (q : Fin 128), j = ix2 p q := ⟨j 0, j 1, eq_ix2 j⟩
  have hlt : 2000 * t.val + p.val < 50000 := by have := t.isLt; have := p.isLt; have : cfg1.N = 25 := rfl; omega
  have hemb : ((cfg1.win 3).blk t).view.emb (ix2 p q) = ix2 (⟨2000 * t.val + p.val, hlt⟩ : Fin 50000) q := by
    funext a; apply Fin.ext
    match a with
    | ⟨0, _⟩ => show win1_3.index t (0 : Fin 2) * 2000 + 1 * p.val = 2000 * t.val + p.val; rw [e0]; omega
    | ⟨1, _⟩ => show win1_3.index t (1 : Fin 2) * 128 + 1 * q.val = q.val; rw [e1]; omega
  show scaleBiasRelu (R := 2000) (C := 128) (iblk1 V c 0 t) (iblk1 V c 1 t) (iblk1 V c 2 t) (ix2 p q)
    = scaleBiasRelu (aarr V c) (narr V c) (barr V c) (((cfg1.win 3).blk t).view.emb (ix2 p q))
  rw [hemb, bblk_read V c t]
  exact scaleBiasRelu_rows (aarr V c) (narr V c) (barr V c) _ _ p ⟨2000 * t.val + p.val, hlt⟩ q
    (ablk_read V c t p q _ rfl) (nblk_read V c t p _ rfl)

/-- An index of the result array is in point t's block iff each coordinate is in the block's range on its axis. -/
theorem mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v28).slice (win1_3.rect t)).set ↔ _
  rw [View.set_slice_whole, Rect.mem_set_unit]
  exact Iff.rfl

/-- Row r of the result lies in the block of point r / 2000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := rfl
  refine ⟨⟨(i 0).val / 2000, by rw [hN]; omega⟩, flush1_3 _, ?_⟩
  obtain ⟨-, -, -, -, -, -, e0, e1⟩ := idx_facts ⟨(i 0).val / 2000, by rw [hN]; omega⟩
  rw [mem_blk]
  intro a
  match a with
  | ⟨0, _⟩ =>
    show win1_3.index _ (0 : Fin 2) * 2000 ≤ (i 0).val ∧ (i 0).val < win1_3.index _ (0 : Fin 2) * 2000 + 2000
    rw [e0]; show (i 0).val / 2000 * 2000 ≤ (i 0).val ∧ (i 0).val < (i 0).val / 2000 * 2000 + 2000; omega
  | ⟨1, _⟩ =>
    show win1_3.index _ (1 : Fin 2) * 128 ≤ (i 1).val ∧ (i 1).val < win1_3.index _ (1 : Fin 2) * 128 + 128
    rw [e1]; omega

/-- After the region the result array is the scaled, biased and clamped array as the region found its operands. -/
theorem final (c : Dev nD) :
    (dat1 V c).arrAt 3 cfg1.N = scaleBiasRelu (aarr V c) (narr V c) (barr V c) :=
  (dat1 V c).arrAt_eq_of_cover 3 (scaleBiasRelu (aarr V c) (narr V c) (barr V c)) (fun t _ => flushed_eq V c t) cover

end Cert.KernelIdeal.Val1

end
-- ==== Proof.Val2.lean ====
/-
  Region 2 (the second layer's scaled product), at any contents `V` of the buffers when the region is entered.

  Point t of the 25 works on rows 2000·t … 2000·t + 1999 of the hidden activations and of the column of per-row
  factors, and on the whole second weight matrix, and writes the same rows of the result: its body leaves `scaleDot` of
  its three blocks, which is block t of `scaleDot` of the whole arrays, and the 25 blocks cover the array.
-/
import proofs.«125507_j24232205484470_1_alg».proof.Proof.Gen.KernelIdeal.Frame
import proofs.«125507_j24232205484470_1_alg».proof.Proof.Pivot
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Val2

open Cert.KernelIdeal Cert.KernelIdeal.Gen Cert.GcnPivot

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, at their literal types. -/
abbrev xarr (c : Dev nD) : FVec Ideal ⟨2, ![50000, 128]⟩ .f32 := V c main_v28
abbrev narr (c : Dev nD) : FVec Ideal ⟨2, ![50000, 1]⟩ .f32 := V c main_v14
abbrev warr (c : Dev nD) : FVec Ideal ⟨2, ![128, 7]⟩ .f32 := V c main_arg5

/-- The body's value: the scaled product of its three loaded blocks. -/
theorem pay_eq (x0 : Vec Ideal S2000x128 .f32) (x1 : Vec Ideal S2000x1 .f32) (x2 : Vec Ideal S128x7 .f32) :
    k2_pay1 x0 x1 x2 = scaleDot (R := 2000) (K := 128) (C := 7) x0 x1 x2 := by
  unfold k2_pay1
  rw [shapeCast_self]
  exact body_scaleDot dot_S2000x128_S128x7_S2000x7_1_0_0_1_n_n rfl rfl rfl rfl rfl rfl x0 x1 x2 _ _ _

/-- The index maps over the grid: the row-indexed windows are at block row t, the weights at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of point t's activation block is row 2000·t + p of the activations. -/
theorem xblk_read (c : Dev nD) (t : Fin cfg2.N) (p : Fin 2000) (k : Fin 128) (p' : Fin 50000) (hp : p'.val = 2000 * t.val + p.val) :
    (iblk2 V c 0 t : FVec Ideal ⟨2, ![2000, 128]⟩ .f32) (ix2 p k) = xarr V c (ix2 p' k) := by
  obtain ⟨e0, e1, -⟩ := idx_facts t
  unfold iblk2
  rw [View.read_apply]
  show V c main_v28 _ = V c main_v28 _
  refine congrArg (V c main_v28) (funext fun a => Fin.ext ?_)
  match a with
  | ⟨0, _⟩ => show win2_0.index t (0 : Fin 2) * 2000 + 1 * p.val = p'.val; rw [e0, hp]; omega
  | ⟨1, _⟩ => show win2_0.index t (1 : Fin 2) * 128 + 1 * k.val = k.val; rw [e1]; omega

/-- Row p of point t's block of per-row factors is row 2000·t + p of the column. -/
theorem nblk_read (c : Dev nD) (t : Fin cfg2.N) (p : Fin 2000) (p' : Fin 50000) (hp : p'.val = 2000 * t.val + p.val) :
    (iblk2 V c 1 t : FVec Ideal ⟨2, ![2000, 1]⟩ .f32) (ix2 p (0 : Fin 1)) = narr V c (ix2 p' (0 : Fin 1)) := by
  obtain ⟨-, -, e0, e1, -⟩ := idx_facts t
  unfold iblk2
  rw [View.read_apply]
  show V c main_v14 _ = V c main_v14 _
  refine congrArg (V c main_v14) (funext fun a => Fin.ext ?_)
  match a with
  | ⟨0, _⟩ => show win2_1.index t (0 : Fin 2) * 2000 + 1 * p.val = p'.val; rw [e0, hp]; omega
  | ⟨1, _⟩ => show win2_1.index t (1 : Fin 2) * 1 + 1 * 0 = 0; rw [e1]

/-- Every point's weight block is the whole weight matrix. -/
theorem wblk_read (c : Dev nD) (t : Fin cfg2.N) :
    (iblk2 V c 2 t : FVec Ideal ⟨2, ![128, 7]⟩ .f32) = warr V c := by
  obtain ⟨-, -, -, -, e0, e1, -⟩ := idx_facts t
  funext y
  unfold iblk2
  rw [View.read_apply]
  show V c main_arg5 _ = V c main_arg5 _
  refine congrArg (V c main_arg5) (funext fun a => Fin.ext ?_)
  match a with
  | ⟨0, _⟩ => show win2_2.index t (0 : Fin 2) * 128 + 1 * (y 0).val = (y 0).val; rw [e0]; omega
  | ⟨1, _⟩ => show win2_2.index t (1 : Fin 2) * 7 + 1 * (y 1).val = (y 1).val; rw [e1]; omega

/-- What point t writes back is block t of the scaled product of the whole arrays. -/
theorem flushed_eq (c : Dev nD) (t : Fin cfg2.N) :
    (dat2 V c).flushed 3 t = ((cfg2.win 3).blk t).view.read (Elt Ideal) (scaleDot (xarr V c) (narr V c) (warr V c)) := by
  show (cfg2.win 3).cut (grid2.coords t) ((dat2 V c).after 3 t) = _
  rw [after2_3]
  unfold out2_3
  rw [View.canon_unit_zero hz]
  simp only [View.ld_unit_zero (S := S2000x128) hz, View.ld_unit_zero (S := S2000x1) hz, View.ld_unit_zero (S := S128x7) hz]
  rw [pay_eq]
  obtain ⟨-, -, -, -, -, -, e0, e1⟩ := idx_facts t
  funext j
  obtain ⟨p, q, rfl⟩ : ∃ (p : Fin 2000) (q : Fin 7), j = ix2 p q := ⟨j 0, j 1, eq_ix2 j⟩
  have hlt : 2000 * t.val + p.val < 50000 := by have := t.isLt; have := p.isLt; have : cfg2.N = 25 := rfl; omega
  have hemb : ((cfg2.win 3).blk t).view.emb (ix2 p q) = ix2 (⟨2000 * t.val + p.val, hlt⟩ : Fin 50000) q := by
    funext a; apply Fin.ext
    match a with
    | ⟨0, _⟩ => show win2_3.index t (0 : Fin 2) * 2000 + 1 * p.val = 2000 * t.val + p.val; rw [e0]; omega
    | ⟨1, _⟩ => show win2_3.index t (1 : Fin 2) * 7 + 1 * q.val = q.val; rw [e1]; omega
  show scaleDot (R := 2000) (K := 128) (C := 7) (iblk2 V c 0 t) (iblk2 V c 1 t) (iblk2 V c 2 t) (ix2 p q)
    = scaleDot (xarr V c) (narr V c) (warr V c) (((cfg2.win 3).blk t).view.emb (ix2 p q))
  rw [hemb, wblk_read V c t]
  exact scaleDot_rows (xarr V c) (narr V c) (warr V c) _ _ p ⟨2000 * t.val + p.val, hlt⟩ q
    (fun k => xblk_read V c t p k _ rfl) (nblk_read V c t p _ rfl)

/-- An index of the result array is in point t's block iff each coordinate is in the block's range on its axis. -/
theorem mem_blk (t : Fin cfg2.N) (i : S50000x7.Idx) :
    i ∈ ((cfg2.win 3).blk t).view.set ↔ ∀ a : Fin 2, win2_3.index t a * S2000x7.size a ≤ (i a).val ∧ (i a).val < win2_3.index t a * S2000x7.size a + S2000x7.size a := by
  show i ∈ ((View.whole main_v29).slice (win2_3.rect t)).set ↔ _
  rw [View.set_slice_whole, Rect.mem_set_unit]
  exact Iff.rfl

/-- Row r of the result lies in the block of point r / 2000. -/
theorem cover (i : S50000x7.Idx) : ∃ t : Fin cfg2.N, (cfg2.win 3).flush t = true ∧ i ∈ ((cfg2.win 3).blk t).view.set := by
  have hi0 : (i 0).val < 50000 := (i 0).isLt
  have hi1 : (i 1).val < 7 := (i 1).isLt
  have hN : cfg2.N = 25 := rfl
  refine ⟨⟨(i 0).val / 2000, by rw [hN]; omega⟩, flush2_3 _, ?_⟩
  obtain ⟨-, -, -, -, -, -, e0, e1⟩ := idx_facts ⟨(i 0).val / 2000, by rw [hN]; omega⟩
  rw [mem_blk]
  intro a
  match a with
  | ⟨0, _⟩ =>
    show win2_3.index _ (0 : Fin 2) * 2000 ≤ (i 0).val ∧ (i 0).val < win2_3.index _ (0 : Fin 2) * 2000 + 2000
    rw [e0]; show (i 0).val / 2000 * 2000 ≤ (i 0).val ∧ (i 0).val < (i 0).val / 2000 * 2000 + 2000; omega
  | ⟨1, _⟩ =>
    show win2_3.index _ (1 : Fin 2) * 7 ≤ (i 1).val ∧ (i 1).val < win2_3.index _ (1 : Fin 2) * 7 + 7
    rw [e1]; omega

/-- After the region the result array is the scaled product of the three arrays as the region found them. -/
theorem final (c : Dev nD) :
    (dat2 V c).arrAt 3 cfg2.N = scaleDot (xarr V c) (narr V c) (warr V c) :=
  (dat2 V c).arrAt_eq_of_cover 3 (scaleDot (xarr V c) (narr V c) (warr V c)) (fun t _ => flushed_eq V c t) cover

end Cert.KernelIdeal.Val2

end
-- ==== Proof.Val3.lean ====
/-
  Region 3 (the second layer's degree scaling and bias), at any contents `V` of the buffers when the region is entered.

  Point t of the 25 works on rows 2000·t … 2000·t + 1999 of the summed messages and of the column of per-row
  factors, and on the whole bias row, and writes the same rows of the result: its body leaves `scaleBias` of its three
  blocks, which is block t of `scaleBias` of the whole arrays, and the 25 blocks cover the array.
-/
import proofs.«125507_j24232205484470_1_alg».proof.Proof.Gen.KernelIdeal.Frame
import proofs.«125507_j24232205484470_1_alg».proof.Proof.Pivot
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Val3

open Cert.KernelIdeal Cert.KernelIdeal.Gen Cert.GcnPivot

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, at their literal types. -/
abbrev aarr (c : Dev nD) : FVec Ideal ⟨2, ![50000, 7]⟩ .f32 := V c main_v39
abbrev narr (c : Dev nD) : FVec Ideal ⟨2, ![50000, 1]⟩ .f32 := V c main_v15
abbrev barr (c : Dev nD) : FVec Ideal ⟨2, ![1, 7]⟩ .f32 := V c main_v40

/-- The body's value: scaling and bias of its three loaded blocks. -/
theorem pay_eq (x0 : Vec Ideal S2000x7 .f32) (x1 : Vec Ideal S2000x1 .f32) (x2 : Vec Ideal S1x7 .f32) :
    k3_pay1 x0 x1 x2 = scaleBias (R := 2000) (C := 7) x0 x1 x2 := by
  unfold k3_pay1
  exact body_scaleBias x0 x1 x2 _ _ _ _ _

/-- The index maps over the grid: the row-indexed windows are at block row t, the bias row at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of point t's block of summed messages is row 2000·t + p of the array. -/
theorem ablk_read (c : Dev nD) (t : Fin cfg3.N) (p : Fin 2000) (q : Fin 7) (p' : Fin 50000) (hp : p'.val = 2000 * t.val + p.val) :
    (iblk3 V c 0 t : FVec Ideal ⟨2, ![2000, 7]⟩ .f32) (ix2 p q) = aarr V c (ix2 p' q) := by
  obtain ⟨e0, e1, -⟩ := idx_facts t
  unfold iblk3
  rw [View.read_apply]
  show V c main_v39 _ = V c main_v39 _
  refine congrArg (V c main_v39) (funext fun a => Fin.ext ?_)
  match a with
  | ⟨0, _⟩ => show win3_0.index t (0 : Fin 2) * 2000 + 1 * p.val = p'.val; rw [e0, hp]; omega
  | ⟨1, _⟩ => show win3_0.index t (1 : Fin 2) * 7 + 1 * q.val = q.val; rw [e1]; omega

/-- Row p of point t's block of per-row factors is row 2000·t + p of the column. -/
theorem nblk_read (c : Dev nD) (t : Fin cfg3.N) (p : Fin 2000) (p' : Fin 50000) (hp : p'.val = 2000 * t.val + p.val) :
    (iblk3 V c 1 t : FVec Ideal ⟨2, ![2000, 1]⟩ .f32) (ix2 p (0 : Fin 1)) = narr V c (ix2 p' (0 : Fin 1)) := by
  obtain ⟨-, -, e0, e1, -⟩ := idx_facts t
  unfold iblk3
  rw [View.read_apply]
  show V c main_v15 _ = V c main_v15 _
  refine congrArg (V c main_v15) (funext fun a => Fin.ext ?_)
  match a with
  | ⟨0, _⟩ => show win3_1.index t (0 : Fin 2) * 2000 + 1 * p.val = p'.val; rw [e0, hp]; omega
  | ⟨1, _⟩ => show win3_1.index t (1 : Fin 2) * 1 + 1 * 0 = 0; rw [e1]

/-- Every point's bias block is the whole bias row. -/
theorem bblk_read (c : Dev nD) (t : Fin cfg3.N) :
    (iblk3 V c 2 t : FVec Ideal ⟨2, ![1, 7]⟩ .f32) = barr V c := by
  obtain ⟨-, -, -, -, e0, e1, -⟩ := idx_facts t
  funext y
  unfold iblk3
  rw [View.read_apply]
  show V c main_v40 _ = V c main_v40 _
  refine congrArg (V c main_v40) (funext fun a => Fin.ext ?_)
  match a with
  | ⟨0, _⟩ => show win3_2.index t (0 : Fin 2) * 1 + 1 * (y 0).val = (y 0).val; rw [e0]; omega
  | ⟨1, _⟩ => show win3_2.index t (1 : Fin 2) * 7 + 1 * (y 1).val = (y 1).val; rw [e1]; omega

/-- What point t writes back is block t of the scaled and biased whole array. -/
theorem flushed_eq (c : Dev nD) (t : Fin cfg3.N) :
    (dat3 V c).flushed 3 t = ((cfg3.win 3).blk t).view.read (Elt Ideal) (scaleBias (aarr V c) (narr V c) (barr V c)) := by
  show (cfg3.win 3).cut (grid3.coords t) ((dat3 V c).after 3 t) = _
  rw [after3_3]
  unfold out3_3
  rw [View.canon_unit_zero hz]
  simp only [View.ld_unit_zero (S := S2000x7) hz, View.ld_unit_zero (S := S2000x1) hz, View.ld_unit_zero (S := S1x7) hz]
  rw [pay_eq]
  obtain ⟨-, -, -, -, -, -, e0, e1⟩ := idx_facts t
  funext j
  obtain ⟨p, q, rfl⟩ : ∃ (p : Fin 2000) (q : Fin 7), j = ix2 p q := ⟨j 0, j 1, eq_ix2 j⟩
  have hlt : 2000 * t.val + p.val < 50000 := by have := t.isLt; have := p.isLt; have : cfg3.N = 25 := rfl; omega
  have hemb : ((cfg3.win 3).blk t).view.emb (ix2 p q) = ix2 (⟨2000 * t.val + p.val, hlt⟩ : Fin 50000) q := by
    funext a; apply Fin.ext
    match a with
    | ⟨0, _⟩ => show win3_3.index t (0 : Fin 2) * 2000 + 1 * p.val = 2000 * t.val + p.val; rw [e0]; omega
    | ⟨1, _⟩ => show win3_3.index t (1 : Fin 2) * 7 + 1 * q.val = q.val; rw [e1]; omega
  show scaleBias (R := 2000) (C := 7) (iblk3 V c 0 t) (iblk3 V c 1 t) (iblk3 V c 2 t) (ix2 p q)
    = scaleBias (aarr V c) (narr V c) (barr V c) (((cfg3.win 3).blk t).view.emb (ix2 p q))
  rw [hemb, bblk_read V c t]
  exact scaleBias_rows (aarr V c) (narr V c) (barr V c) _ _ p ⟨2000 * t.val + p.val, hlt⟩ q
    (ablk_read V c t p q _ rfl) (nblk_read V c t p _ rfl)

/-- An index of the result array is in point t's block iff each coordinate is in the block's range on its axis. -/
theorem mem_blk (t : Fin cfg3.N) (i : S50000x7.Idx) :
    i ∈ ((cfg3.win 3).blk t).view.set ↔ ∀ a : Fin 2, win3_3.index t a * S2000x7.size a ≤ (i a).val ∧ (i a).val < win3_3.index t a * S2000x7.size a + S2000x7.size a := by
  show i ∈ ((View.whole main_v41).slice (win3_3.rect t)).set ↔ _
  rw [View.set_slice_whole, Rect.mem_set_unit]
  exact Iff.rfl

/-- Row r of the result lies in the block of point r / 2000. -/
theorem cover (i : S50000x7.Idx) : ∃ t : Fin cfg3.N, (cfg3.win 3).flush t = true ∧ i ∈ ((cfg3.win 3).blk t).view.set := by
  have hi0 : (i 0).val < 50000 := (i 0).isLt
  have hi1 : (i 1).val < 7 := (i 1).isLt
  have hN : cfg3.N = 25 := rfl
  refine ⟨⟨(i 0).val / 2000, by rw [hN]; omega⟩, flush3_3 _, ?_⟩
  obtain ⟨-, -, -, -, -, -, e0, e1⟩ := idx_facts ⟨(i 0).val / 2000, by rw [hN]; omega⟩
  rw [mem_blk]
  intro a
  match a with
  | ⟨0, _⟩ =>
    show win3_3.index _ (0 : Fin 2) * 2000 ≤ (i 0).val ∧ (i 0).val < win3_3.index _ (0 : Fin 2) * 2000 + 2000
    rw [e0]; show (i 0).val / 2000 * 2000 ≤ (i 0).val ∧ (i 0).val < (i 0).val / 2000 * 2000 + 2000; omega
  | ⟨1, _⟩ =>
    show win3_3.index _ (1 : Fin 2) * 7 ≤ (i 1).val ∧ (i 1).val < win3_3.index _ (1 : Fin 2) * 7 + 7
    rw [e1]; omega

/-- After the region the result array is the scaled and biased array as the region found its operands. -/
theorem final (c : Dev nD) :
    (dat3 V c).arrAt 3 cfg3.N = scaleBias (aarr V c) (narr V c) (barr V c) :=
  (dat3 V c).arrAt_eq_of_cover 3 (scaleBias (aarr V c) (narr V c) (barr V c)) (fun t _ => flushed_eq V c t) cover

end Cert.KernelIdeal.Val3

end
-- ==== Proof.LibKeep.lean ====
/-
  A buffer that no operation of a host stretch writes keeps its contents across the stretch.
-/
import Idealize.ShloMosaic.Lib.StableHlo.Run

namespace Cert.LibKeep

open Idealize.ShloMosaic

/-- Closes `after ops X (devRef b) = X (devRef b)` for a literal list `ops` (named by the identifier given) none of
    whose operations writes `b`: each operation writes one literal reference, and it differs from `b`. -/
macro "kept_host" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

end Cert.LibKeep
-- ==== Proof.Walk.lean ====
/-
  The kernel program's result as a function of the launch memory, boundary by boundary.

  @main is: host operations (the two degree norms), region 0, host operations (gather along the edges' sources, sum into
  the edges' destinations; the bias as a row), region 1, region 2, host operations (the same gather and sum at the
  second width; the second bias as a row), region 3. The contents of the buffers at each of the seven boundaries are a
  fold from the launch memory; here each buffer a later step reads is walked back through that fold: a host operation's
  result is its function of its operands, a region's result array is what the region's value lemma says, and a buffer
  that a step does not write keeps its contents.

  With n_s, n_d the inverse square roots of the clamped out- and in-degrees (as one-column matrices),
    h₁ = scaleDot features n_s W₁,   a₁ = edge sums of h₁,   x₁ = scaleBiasRelu a₁ n_d b₁,
    h₂ = scaleDot x₁ n_s W₂,         a₂ = edge sums of h₂,   out = scaleBias a₂ n_d b₂.
-/
import proofs.«125507_j24232205484470_1_alg».proof.Proof.Gen.KernelIdeal.Frame
import proofs.«125507_j24232205484470_1_alg».proof.Proof.Pivot
import proofs.«125507_j24232205484470_1_alg».proof.Proof.Val0
import proofs.«125507_j24232205484470_1_alg».proof.Proof.Val1
import proofs.«125507_j24232205484470_1_alg».proof.Proof.Val2
import proofs.«125507_j24232205484470_1_alg».proof.Proof.Val3
import proofs.«125507_j24232205484470_1_alg».proof.Proof.LibKeep
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Walk

open Cert.KernelIdeal Cert.KernelIdeal.Gen Cert.GcnPivot Cert.LibKeep

/-! ## The host chains, each as one function -/

/-- The inverse square root of the clamped degree: the number of edges with a given end node, at least one. -/
def degNorm (idx : IVec S1600000 32) : FVec Ideal S50000 .f32 :=
  Host.rsqrt (F := Ideal) (maximumf (F := Ideal)
    (Host.scatterAdd (F := Ideal) scatter_S50000_S1600000x1_S1600000_n_0_0_1
      (broadcastInDim S50000 ![] bcast_S_S50000 (constant (F := Ideal) S_ .f32 0x00000000#32))
      (broadcastInDim S1600000x1 ![0] bcast_S1600000_S1600000x1_0 idx)
      (broadcastInDim S1600000 ![] bcast_S_S1600000 (constant (F := Ideal) S_ .f32 0x3F800000#32)))
    (broadcastInDim S50000 ![] bcast_S_S50000 (constant (F := Ideal) S_ .f32 0x3F800000#32)))

/-- The gather's index column: a negative node number counts from the end. -/
def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- Rows gathered at the edges' sources and summed into the edges' destinations, 128 columns. -/
def edgeSum128 (h : FVec Ideal S50000x128 .f32) (src dst : IVec S1600000 32) : FVec Ideal S50000x128 .f32 :=
  Host.scatterAdd (F := Ideal) scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 dst)
    (Host.gather gather_S50000x128_S1600000x1_S1600000x128_1_0_n_n_0_1_1128 h (wrapIdx src))

/-- The same at 7 columns. -/
def edgeSum7 (h : FVec Ideal S50000x7 .f32) (src dst : IVec S1600000 32) : FVec Ideal S50000x7 .f32 :=
  Host.scatterAdd (F := Ideal) scatter_S50000x7_S1600000x1_S1600000x7_1_0_0_1
    (broadcastInDim S50000x7 ![] bcast_S_S50000x7 (constant (F := Ideal) S_ .f32 0x00000000#32))
    (broadcastInDim S1600000x1 ![0] bcast_S1600000_S1600000x1_0 dst)
    (Host.gather gather_S50000x7_S1600000x1_S1600000x7_1_0_n_n_0_1_17 h (wrapIdx src))

variable (m : (ℓ : Loc nD τ sig) → Buf (Elt Ideal) ℓ) (ρ : Dev nD → PrngReg)

/-! ## The values along the program -/

abbrev nS (c : Dev nD) : FVec Ideal S50000x1 .f32 :=
  shapeCast S50000x1 (degNorm (m ((c : Thread nD τ).loc main_arg1))) shapeCasts_S50000_S50000x1
abbrev nD' (c : Dev nD) : FVec Ideal S50000x1 .f32 :=
  shapeCast S50000x1 (degNorm (m ((c : Thread nD τ).loc main_arg2))) shapeCasts_S50000_S50000x1
abbrev h1 (c : Dev nD) : FVec Ideal S50000x128 .f32 :=
  scaleDot (R := 50000) (K := 1433) (C := 128) (m ((c : Thread nD τ).loc main_arg0)) (nS m c) (m ((c : Thread nD τ).loc main_arg3))
abbrev a1 (c : Dev nD) : FVec Ideal S50000x128 .f32 :=
  edgeSum128 (h1 m c) (m ((c : Thread nD τ).loc main_arg1)) (m ((c : Thread nD τ).loc main_arg2))
abbrev x1 (c : Dev nD) : FVec Ideal S50000x128 .f32 :=
  scaleBiasRelu (R := 50000) (C := 128) (a1 m c) (nD' m c) (shapeCast S1x128 (m ((c : Thread nD τ).loc main_arg4)) shapeCasts_S128_S1x128)
abbrev h2 (c : Dev nD) : FVec Ideal S50000x7 .f32 :=
  scaleDot (R := 50000) (K := 128) (C := 7) (x1 m c) (nS m c) (m ((c : Thread nD τ).loc main_arg5))
abbrev a2 (c : Dev nD) : FVec Ideal S50000x7 .f32 :=
  edgeSum7 (h2 m c) (m ((c : Thread nD τ).loc main_arg1)) (m ((c : Thread nD τ).loc main_arg2))
/-- The kernel program's result. -/
abbrev out (c : Dev nD) : FVec Ideal S50000x7 .f32 :=
  scaleBias (R := 50000) (C := 7) (a2 m c) (nD' m c) (shapeCast S1x7 (m ((c : Thread nD τ).loc main_arg6)) shapeCasts_S7_S1x7)

/-! ## Boundary 1: after the first host stretch -/

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  kept_host hostOps0
theorem W1_arg1 (c : Dev nD) : W1 m ρ c (Proc.devRef .tc main_arg1) = m ((c : Thread nD τ).loc main_arg1) := by
  show StableHlo.after hostOps0 (W0 m ρ c) (Proc.devRef .tc main_arg1) = W0 m ρ c (Proc.devRef .tc main_arg1)
  kept_host hostOps0
theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  kept_host hostOps0
theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  kept_host hostOps0
theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  kept_host hostOps0
theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  kept_host hostOps0
theorem W1_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6)
  kept_host hostOps0

/-- The column of source-side factors. -/
theorem W1_v14 (c : Dev nD) : W1 m ρ c (Proc.devRef .tc main_v14) = nS m c := by
  show StableHlo.after hostOps0 (W0 m ρ c) (Proc.devRef .tc main_v14) = _
  dsimp only [hostOps0]
  after_results
  rfl
/-- The column of destination-side factors. -/
theorem W1_v15 (c : Dev nD) : W1 m ρ c (Proc.devRef .tc main_v15) = nD' m c := by
  show StableHlo.after hostOps0 (W0 m ρ c) (Proc.devRef .tc main_v15) = _
  dsimp only [hostOps0]
  after_results
  rfl

/-! ## Boundary 2: after region 0 (arrays: features, source factors, W₁, h₁) -/

theorem W2_v16 (c : Dev nD) : W2 m ρ c (Proc.devRef .tc main_v16) = h1 m c := by
  refine (W2_arr m ρ c 3).trans ((Val0.final (V1 m ρ) c).trans ?_)
  show scaleDot (R := 50000) (K := 1433) (C := 128) (W1 m ρ c (Proc.devRef .tc main_arg0)) (W1 m ρ c (Proc.devRef .tc main_v14))
    (W1 m ρ c (Proc.devRef .tc main_arg3)) = _
  rw [W1_arg0, W1_v14, W1_arg3]
theorem W2_v14 (c : Dev nD) : W2 m ρ c (Proc.devRef .tc main_v14) = nS m c :=
  ((W2_arr m ρ c 1).trans (((dat0 (V1 m ρ) c).arrAt_in 1 rfl _).trans (A_eq0 (V1 m ρ) c 1))).trans (W1_v14 m ρ c)
theorem W2_v15 (c : Dev nD) : W2 m ρ c (Proc.devRef .tc main_v15) = nD' m c :=
  (W2_of_ne m ρ c main_v15 (by decide)).trans (W1_v15 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)

/-! ## Boundary 3: after the second host stretch -/

theorem W3_v26 (c : Dev nD) : W3 m ρ c (Proc.devRef .tc main_v26) = a1 m c := by
  have e : W3 m ρ c (Proc.devRef .tc main_v26)
      = edgeSum128 (W2 m ρ c (Proc.devRef .tc main_v16)) (W2 m ρ c (Proc.devRef .tc main_arg1)) (W2 m ρ c (Proc.devRef .tc main_arg2)) := by
    show StableHlo.after hostOps1 (W2 m ρ c) (Proc.devRef .tc main_v26) = _
    dsimp only [hostOps1]
    after_results
    rfl
  rw [e, W2_v16, W2_arg1, W2_arg2]
theorem W3_v27 (c : Dev nD) : W3 m ρ c (Proc.devRef .tc main_v27)
    = shapeCast S1x128 (m ((c : Thread nD τ).loc main_arg4)) shapeCasts_S128_S1x128 := by
  have e : W3 m ρ c (Proc.devRef .tc main_v27) = shapeCast S1x128 (W2 m ρ c (Proc.devRef .tc main_arg4)) shapeCasts_S128_S1x128 := by
    show StableHlo.after hostOps1 (W2 m ρ c) (Proc.devRef .tc main_v27) = _
    dsimp only [hostOps1]
    after_results
    rfl
  rw [e, W2_arg4]
theorem W3_v15 (c : Dev nD) : W3 m ρ c (Proc.devRef .tc main_v15) = nD' m c := by
  refine Eq.trans ?_ (W2_v15 m ρ c)
  show StableHlo.after hostOps1 (W2 m ρ c) (Proc.devRef .tc main_v15) = W2 m ρ c (Proc.devRef .tc main_v15)
  kept_host hostOps1
theorem W3_v14 (c : Dev nD) : W3 m ρ c (Proc.devRef .tc main_v14) = nS m c := by
  refine Eq.trans ?_ (W2_v14 m ρ c)
  show StableHlo.after hostOps1 (W2 m ρ c) (Proc.devRef .tc main_v14) = W2 m ρ c (Proc.devRef .tc main_v14)
  kept_host hostOps1
theorem W3_arg1 (c : Dev nD) : W3 m ρ c (Proc.devRef .tc main_arg1) = m ((c : Thread nD τ).loc main_arg1) := by
  refine Eq.trans ?_ (W2_arg1 m ρ c)
  show StableHlo.after hostOps1 (W2 m ρ c) (Proc.devRef .tc main_arg1) = W2 m ρ c (Proc.devRef .tc main_arg1)
  kept_host hostOps1
theorem W3_arg2 (c : Dev nD) : W3 m ρ c (Proc.devRef .tc main_arg2) = m ((c : Thread nD τ).loc main_arg2) := by
  refine Eq.trans ?_ (W2_arg2 m ρ c)
  show StableHlo.after hostOps1 (W2 m ρ c) (Proc.devRef .tc main_arg2) = W2 m ρ c (Proc.devRef .tc main_arg2)
  kept_host hostOps1
theorem W3_arg5 (c : Dev nD) : W3 m ρ c (Proc.devRef .tc main_arg5) = m ((c : Thread nD τ).loc main_arg5) := by
  refine Eq.trans ?_ (W2_arg5 m ρ c)
  show StableHlo.after hostOps1 (W2 m ρ c) (Proc.devRef .tc main_arg5) = W2 m ρ c (Proc.devRef .tc main_arg5)
  kept_host hostOps1
theorem W3_arg6 (c : Dev nD) : W3 m ρ c (Proc.devRef .tc main_arg6) = m ((c : Thread nD τ).loc main_arg6) := by
  refine Eq.trans ?_ (W2_arg6 m ρ c)
  show StableHlo.after hostOps1 (W2 m ρ c) (Proc.devRef .tc main_arg6) = W2 m ρ c (Proc.devRef .tc main_arg6)
  kept_host hostOps1

/-! ## Boundary 4: after region 1 (arrays: a₁, destination factors, the bias row, x₁) -/

theorem W4_v28 (c : Dev nD) : W4 m ρ c (Proc.devRef .tc main_v28) = x1 m c := by
  refine (W4_arr m ρ c 3).trans ((Val1.final (V3 m ρ) c).trans ?_)
  show scaleBiasRelu (R := 50000) (C := 128) (W3 m ρ c (Proc.devRef .tc main_v26)) (W3 m ρ c (Proc.devRef .tc main_v15))
    (W3 m ρ c (Proc.devRef .tc main_v27)) = _
  rw [W3_v26, W3_v15, W3_v27]
theorem W4_v15 (c : Dev nD) : W4 m ρ c (Proc.devRef .tc main_v15) = nD' m c :=
  ((W4_arr m ρ c 1).trans (((dat1 (V3 m ρ) c).arrAt_in 1 rfl _).trans (A_eq1 (V3 m ρ) c 1))).trans (W3_v15 m ρ c)
theorem W4_v14 (c : Dev nD) : W4 m ρ c (Proc.devRef .tc main_v14) = nS m c :=
  (W4_of_ne m ρ c main_v14 (by decide)).trans (W3_v14 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)

/-! ## Boundary 5: after region 2 (arrays: x₁, source factors, W₂, h₂) -/

theorem W5_v29 (c : Dev nD) : W5 m ρ c (Proc.devRef .tc main_v29) = h2 m c := by
  refine (W5_arr m ρ c 3).trans ((Val2.final (V4 m ρ) c).trans ?_)
  show scaleDot (R := 50000) (K := 128) (C := 7) (W4 m ρ c (Proc.devRef .tc main_v28)) (W4 m ρ c (Proc.devRef .tc main_v14))
    (W4 m ρ c (Proc.devRef .tc main_arg5)) = _
  rw [W4_v28, W4_v14, W4_arg5]
theorem W5_v15 (c : Dev nD) : W5 m ρ c (Proc.devRef .tc main_v15) = nD' m c :=
  (W5_of_ne m ρ c main_v15 (by decide)).trans (W4_v15 m ρ c)
theorem W5_arg1 (c : Dev nD) : W5 m ρ c (Proc.devRef .tc main_arg1) = m ((c : Thread nD τ).loc main_arg1) :=
  (W5_of_ne m ρ c main_arg1 (by decide)).trans (W4_arg1 m ρ c)
theorem W5_arg2 (c : Dev nD) : W5 m ρ c (Proc.devRef .tc main_arg2) = m ((c : Thread nD τ).loc main_arg2) :=
  (W5_of_ne m ρ c main_arg2 (by decide)).trans (W4_arg2 m ρ c)
theorem W5_arg6 (c : Dev nD) : W5 m ρ c (Proc.devRef .tc main_arg6) = m ((c : Thread nD τ).loc main_arg6) :=
  (W5_of_ne m ρ c main_arg6 (by decide)).trans (W4_arg6 m ρ c)

/-! ## Boundary 6: after the third host stretch -/

theorem W6_v39 (c : Dev nD) : W6 m ρ c (Proc.devRef .tc main_v39) = a2 m c := by
  have e : W6 m ρ c (Proc.devRef .tc main_v39)
      = edgeSum7 (W5 m ρ c (Proc.devRef .tc main_v29)) (W5 m ρ c (Proc.devRef .tc main_arg1)) (W5 m ρ c (Proc.devRef .tc main_arg2)) := by
    show StableHlo.after hostOps3 (W5 m ρ c) (Proc.devRef .tc main_v39) = _
    dsimp only [hostOps3]
    after_results
    rfl
  rw [e, W5_v29, W5_arg1, W5_arg2]
theorem W6_v40 (c : Dev nD) : W6 m ρ c (Proc.devRef .tc main_v40)
    = shapeCast S1x7 (m ((c : Thread nD τ).loc main_arg6)) shapeCasts_S7_S1x7 := by
  have e : W6 m ρ c (Proc.devRef .tc main_v40) = shapeCast S1x7 (W5 m ρ c (Proc.devRef .tc main_arg6)) shapeCasts_S7_S1x7 := by
    show StableHlo.after hostOps3 (W5 m ρ c) (Proc.devRef .tc main_v40) = _
    dsimp only [hostOps3]
    after_results
    rfl
  rw [e, W5_arg6]
theorem W6_v15 (c : Dev nD) : W6 m ρ c (Proc.devRef .tc main_v15) = nD' m c := by
  refine Eq.trans ?_ (W5_v15 m ρ c)
  show StableHlo.after hostOps3 (W5 m ρ c) (Proc.devRef .tc main_v15) = W5 m ρ c (Proc.devRef .tc main_v15)
  kept_host hostOps3

/-! ## Boundary 7: after region 3 (arrays: a₂, destination factors, the second bias row, the result) -/

/-- The result buffer at the last boundary is the kernel program's result as a function of the launch memory. -/
theorem W7_v41 (c : Dev nD) : W7 m ρ c (Proc.devRef .tc main_v41) = out m c := by
  refine (W7_arr m ρ c 3).trans ((Val3.final (V6 m ρ) c).trans ?_)
  show scaleBias (R := 50000) (C := 7) (W6 m ρ c (Proc.devRef .tc main_v39)) (W6 m ρ c (Proc.devRef .tc main_v15))
    (W6 m ρ c (Proc.devRef .tc main_v40)) = _
  rw [W6_v39, W6_v15, W6_v40]

end Cert.KernelIdeal.Walk

end
-- ==== Proof.RefSide.lean ====
/-
  The reference program's result, layer by layer.

  The generated run states the result as one composed term of the arguments. Here that term is named piece by piece —
  the two degree norms as one-column matrices, then per layer the scaled product, the edge sums, the scaling with bias
  (and clamp) — and each layer's host operations are replaced by the function they compute index by index
  (`scaleDot`, `scaleBiasRelu`, `scaleBias`), the edge sums staying one opaque function of their operands.
-/
import proofs.«125507_j24232205484470_1_alg».proof.Proof.Gen.ReferenceIdeal.Run
import proofs.«125507_j24232205484470_1_alg».proof.Proof.Pivot

set_option maxRecDepth 16384

noncomputable section

open Idealize.ShloMosaic Idealize.ShloMosaic.TcCoe Idealize.SL.Sem Idealize.ShloMosaic.ValueIdx

namespace Cert.ReferenceIdeal.RefSide

open Cert.ReferenceIdeal Cert.ReferenceIdeal.Gen Cert.GcnPivot

/-! ## The host chains, each as one function -/

/-- The inverse square root of the clamped degree. -/
def degNorm (idx : IVec S1600000 32) : FVec Ideal S50000 .f32 :=
  Host.rsqrt (F := Ideal) (maximumf (F := Ideal)
    (Host.scatterAdd (F := Ideal) scatter_S50000_S1600000x1_S1600000_n_0_0_1
      (broadcastInDim S50000 ![] bcast_S_S50000 (constant (F := Ideal) S_ .f32 0x00000000#32))
      (broadcastInDim S1600000x1 ![0] bcast_S1600000_S1600000x1_0 idx)
      (broadcastInDim S1600000 ![] bcast_S_S1600000 (constant (F := Ideal) S_ .f32 0x3F800000#32)))
    (broadcastInDim S50000 ![] bcast_S_S50000 (constant (F := Ideal) S_ .f32 0x3F800000#32)))

/-- The gather's index column: a negative node number counts from the end. -/
def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- Rows gathered at the edges' sources and summed into the edges' destinations, 128 columns. -/
def edgeSum128 (h : FVec Ideal S50000x128 .f32) (src dst : IVec S1600000 32) : FVec Ideal S50000x128 .f32 :=
  Host.scatterAdd (F := Ideal) scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 dst)
    (Host.gather gather_S50000x128_S1600000x1_S1600000x128_1_0_n_n_0_1_1128 h (wrapIdx src))

/-- The same at 7 columns. -/
def edgeSum7 (h : FVec Ideal S50000x7 .f32) (src dst : IVec S1600000 32) : FVec Ideal S50000x7 .f32 :=
  Host.scatterAdd (F := Ideal) scatter_S50000x7_S1600000x1_S1600000x7_1_0_0_1
    (broadcastInDim S50000x7 ![] bcast_S_S50000x7 (constant (F := Ideal) S_ .f32 0x00000000#32))
    (broadcastInDim S1600000x1 ![0] bcast_S1600000_S1600000x1_0 dst)
    (Host.gather gather_S50000x7_S1600000x1_S1600000x7_1_0_n_n_0_1_17 h (wrapIdx src))

variable (m : (ℓ : Loc nD τ sig) → Buf (Elt Ideal) ℓ)

/-! ## The layers as the host computes them -/

def nS (c : Dev nD) : FVec Ideal S50000x1 .f32 :=
  broadcastInDim S50000x1 ![0] bcast_S50000_S50000x1_0 (degNorm (m ((c.tc : Thread nD τ).loc main_arg1)))
def nD' (c : Dev nD) : FVec Ideal S50000x1 .f32 :=
  broadcastInDim S50000x1 ![0] bcast_S50000_S50000x1_0 (degNorm (m ((c.tc : Thread nD τ).loc main_arg2)))
def h1 (c : Dev nD) : FVec Ideal S50000x128 .f32 :=
  Host.dotGeneral (F := Ideal) (φ₁ := .f32) (φ₂ := .f32) dot_S50000x1433_S1433x128_S50000x128_1_0_0_1_n_n none
    (mulf (F := Ideal) (m ((c.tc : Thread nD τ).loc main_arg0)) (broadcastInDim S50000x1433 ![0, 1] bcast_S50000x1_S50000x1433_0_1 (nS m c)))
    (m ((c.tc : Thread nD τ).loc main_arg3))
def a1 (c : Dev nD) : FVec Ideal S50000x128 .f32 :=
  edgeSum128 (h1 m c) (m ((c.tc : Thread nD τ).loc main_arg1)) (m ((c.tc : Thread nD τ).loc main_arg2))
def b1row (c : Dev nD) : FVec Ideal S1x128 .f32 :=
  broadcastInDim S1x128 ![1] bcast_S128_S1x128_1 (m ((c.tc : Thread nD τ).loc main_arg4))
def x1 (c : Dev nD) : FVec Ideal S50000x128 .f32 :=
  maximumf (F := Ideal)
    (addf (F := Ideal) (mulf (F := Ideal) (a1 m c) (broadcastInDim S50000x128 ![0, 1] bcast_S50000x1_S50000x128_0_1 (nD' m c)))
      (broadcastInDim S50000x128 ![0, 1] bcast_S1x128_S50000x128_0_1 (b1row m c)))
    (broadcastInDim S50000x128 ![] bcast_S_S50000x128 (constant (F := Ideal) S_ .f32 0x00000000#32))
def h2 (c : Dev nD) : FVec Ideal S50000x7 .f32 :=
  Host.dotGeneral (F := Ideal) (φ₁ := .f32) (φ₂ := .f32) dot_S50000x128_S128x7_S50000x7_1_0_0_1_n_n none
    (mulf (F := Ideal) (x1 m c) (broadcastInDim S50000x128 ![0, 1] bcast_S50000x1_S50000x128_0_1 (nS m c)))
    (m ((c.tc : Thread nD τ).loc main_arg5))
def a2 (c : Dev nD) : FVec Ideal S50000x7 .f32 :=
  edgeSum7 (h2 m c) (m ((c.tc : Thread nD τ).loc main_arg1)) (m ((c.tc : Thread nD τ).loc main_arg2))
def b2row (c : Dev nD) : FVec Ideal S1x7 .f32 :=
  broadcastInDim S1x7 ![1] bcast_S7_S1x7_1 (m ((c.tc : Thread nD τ).loc main_arg6))
def out (c : Dev nD) : FVec Ideal S50000x7 .f32 :=
  addf (F := Ideal) (mulf (F := Ideal) (a2 m c) (broadcastInDim S50000x7 ![0, 1] bcast_S50000x1_S50000x7_0_1 (nD' m c)))
    (broadcastInDim S50000x7 ![0, 1] bcast_S1x7_S50000x7_0_1 (b2row m c))

/-- The generated run's result term is the last layer's value: the names above unfold to it. -/
theorem res_eq (c : Dev nD) : Cert.ReferenceIdeal.Value.res_main_v54 (F := Ideal) m c = out m c := by
  unfold Cert.ReferenceIdeal.Value.res_main_v54 out b2row a2 edgeSum7 wrapIdx h2 x1 b1row a1 edgeSum128 wrapIdx h1 nD' nS degNorm
  rfl

/-! ## Each layer as its function -/

/-- A scalar placed at every index reads the scalar. -/
theorem bcast_scalar_apply {α : Type} {t : Shape} (h : (⟨0, ![]⟩ : Shape).BroadcastsInDim t ![]) (x : (⟨0, ![]⟩ : Shape).Idx → α) (j : t.Idx) :
    broadcastInDim t ![] h x j = x ix0 :=
  broadcastInDim_apply _ h x j ix0 fun a => a.elim0

theorem h1_eq (c : Dev nD) : h1 m c
    = scaleDot (R := 50000) (K := 1433) (C := 128) (m ((c.tc : Thread nD τ).loc main_arg0)) (nS m c) (m ((c.tc : Thread nD τ).loc main_arg3)) := by
  unfold h1
  exact host_scaleDot dot_S50000x1433_S1433x128_S50000x128_1_0_0_1_n_n rfl rfl rfl rfl rfl rfl _ _ _ _

theorem x1_eq (c : Dev nD) : x1 m c = scaleBiasRelu (R := 50000) (C := 128) (a1 m c) (nD' m c) (b1row m c) := by
  unfold x1
  exact host_scaleBiasRelu _ _ _ _ _ _ fun i => by rw [bcast_scalar_apply]; rfl

theorem h2_eq (c : Dev nD) : h2 m c
    = scaleDot (R := 50000) (K := 128) (C := 7) (x1 m c) (nS m c) (m ((c.tc : Thread nD τ).loc main_arg5)) := by
  unfold h2
  exact host_scaleDot dot_S50000x128_S128x7_S50000x7_1_0_0_1_n_n rfl rfl rfl rfl rfl rfl _ _ _ _

theorem out_eq (c : Dev nD) : out m c = scaleBias (R := 50000) (C := 7) (a2 m c) (nD' m c) (b2row m c) := by
  unfold out
  exact host_scaleBias _ _ _ _ _

end Cert.ReferenceIdeal.RefSide

end
-- ==== Proof.LibCastBcast.lean ====
/-
  A rank-1 array recast as a one-column or a one-row matrix is the same array as the one
  `broadcast_in_dim` makes of it along that axis: both read, at every index, the vector's entry at the
  index's one non-unit coordinate.
-/
import Idealize.ShloMosaic.Lib.Pipeline.Value
import Idealize.ShloMosaic.Lib.ValueIdx

namespace Cert.LibCastBcast

open Idealize.ShloMosaic Idealize.ShloMosaic.ValueIdx

variable {α : Type}

/-- An `[a]` vector recast to the column `[a, 1]` is its `broadcast_in_dim` along axis 0. -/
theorem column_cast_eq_bcast {a : ℕ} (x : (⟨1, ![a]⟩ : Shape).Idx → α)
    (h : (⟨1, ![a]⟩ : Shape).ShapeCasts ⟨2, ![a, 1]⟩)
    (h' : (⟨1, ![a]⟩ : Shape).BroadcastsInDim (⟨2, ![a, 1]⟩ : Shape) ![0]) :
    shapeCast ⟨2, ![a, 1]⟩ x h = broadcastInDim (⟨2, ![a, 1]⟩ : Shape) ![0] h' x := by
  funext j
  obtain ⟨p, u, rfl⟩ : ∃ (p : Fin a) (u : Fin 1), j = ix2 p u := ⟨j 0, j 1, eq_ix2 j⟩
  have hu : u.val = 0 := by omega
  refine (shapeCast_apply x h _ (ix1 p) ?_).trans (broadcastInDim_apply _ h' x _ (ix1 p) fun ax => ?_).symm
  · rw [Shape.rowMajor_val_two, Shape.rowMajor_val_one]
    show p.val = p.val * 1 + u.val
    rw [hu, Nat.mul_one, Nat.add_zero]
  · match ax with
    | ⟨0, _⟩ =>
      show p.val = if a = 1 then 0 else p.val
      split
      · have := p.isLt; omega
      · rfl

/-- A `[b]` vector recast to the row `[1, b]` is its `broadcast_in_dim` along axis 1. -/
theorem row_cast_eq_bcast {b : ℕ} (x : (⟨1, ![b]⟩ : Shape).Idx → α)
    (h : (⟨1, ![b]⟩ : Shape).ShapeCasts ⟨2, ![1, b]⟩)
    (h' : (⟨1, ![b]⟩ : Shape).BroadcastsInDim (⟨2, ![1, b]⟩ : Shape) ![1]) :
    shapeCast ⟨2, ![1, b]⟩ x h = broadcastInDim (⟨2, ![1, b]⟩ : Shape) ![1] h' x := by
  funext j
  obtain ⟨u, q, rfl⟩ : ∃ (u : Fin 1) (q : Fin b), j = ix2 u q := ⟨j 0, j 1, eq_ix2 j⟩
  have hu : u.val = 0 := by omega
  refine (shapeCast_apply x h _ (ix1 q) ?_).trans (broadcastInDim_apply _ h' x _ (ix1 q) fun ax => ?_).symm
  · rw [Shape.rowMajor_val_two, Shape.rowMajor_val_one]
    show q.val = u.val * b + q.val
    rw [hu, Nat.zero_mul, Nat.zero_add]
  · match ax with
    | ⟨0, _⟩ =>
      show q.val = if b = 1 then 0 else q.val
      split
      · have := q.isLt; omega
      · rfl

end Cert.LibCastBcast
-- ==== Proof.Bridge.lean ====
/-
  The two programs compute one function.

  Both results are now written with the same three index-by-index functions and the same opaque edge sums; what is
  left between them is spelling: the kernel program recasts a rank-1 array as a one-column (or one-row) matrix where
  the reference places it by `broadcast_in_dim` — the same matrix —, the two programs' dimension records for the
  degree count, the gather and the sums are the same records, and the arguments agree by hypothesis. So layer by
  layer the reference's values are the kernel's.
-/
import proofs.«125507_j24232205484470_1_alg».proof.Proof.Walk
import proofs.«125507_j24232205484470_1_alg».proof.Proof.RefSide
import proofs.«125507_j24232205484470_1_alg».proof.Proof.LibCastBcast

set_option maxRecDepth 16384

noncomputable section

open Idealize.ShloMosaic Idealize.ShloMosaic.TcCoe Idealize.SL.Sem

namespace Cert.Proof.Bridge

open Cert.GcnPivot

/-- The two programs' degree norms, index columns and edge sums are the same functions: the same operations over the
    same dimension records. -/
theorem degNorm_eq : Cert.ReferenceIdeal.RefSide.degNorm = Cert.KernelIdeal.Walk.degNorm := rfl
theorem edgeSum128_eq : Cert.ReferenceIdeal.RefSide.edgeSum128 = Cert.KernelIdeal.Walk.edgeSum128 := rfl
theorem edgeSum7_eq : Cert.ReferenceIdeal.RefSide.edgeSum7 = Cert.KernelIdeal.Walk.edgeSum7 := rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

section
variable
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))

include h1 in
/-- The source-side factors: the column placed by `broadcast_in_dim` is the column made by recasting. -/
theorem nS_eq : Cert.ReferenceIdeal.RefSide.nS m' c = Cert.KernelIdeal.Walk.nS m c := by
  unfold Cert.ReferenceIdeal.RefSide.nS
  rw [h1, degNorm_eq]
  exact (Cert.LibCastBcast.column_cast_eq_bcast _ _ _).symm

include h2 in
/-- The destination-side factors, the same way. -/
theorem nD_eq : Cert.ReferenceIdeal.RefSide.nD' m' c = Cert.KernelIdeal.Walk.nD' m c := by
  unfold Cert.ReferenceIdeal.RefSide.nD'
  rw [h2, degNorm_eq]
  exact (Cert.LibCastBcast.column_cast_eq_bcast _ _ _).symm

include h4 in
/-- The first bias as a row. -/
theorem b1row_eq : Cert.ReferenceIdeal.RefSide.b1row m' c
    = shapeCast Cert.KernelIdeal.S1x128 (m ((c.tc : Thread Cert.KernelIdeal.nD Cert.KernelIdeal.τ).loc Cert.KernelIdeal.main_arg4)) Cert.KernelIdeal.Gen.shapeCasts_S128_S1x128 := by
  unfold Cert.ReferenceIdeal.RefSide.b1row
  rw [h4]
  exact (Cert.LibCastBcast.row_cast_eq_bcast _ _ _).symm

include h6 in
/-- The second bias as a row. -/
theorem b2row_eq : Cert.ReferenceIdeal.RefSide.b2row m' c
    = shapeCast Cert.KernelIdeal.S1x7 (m ((c.tc : Thread Cert.KernelIdeal.nD Cert.KernelIdeal.τ).loc Cert.KernelIdeal.main_arg6)) Cert.KernelIdeal.Gen.shapeCasts_S7_S1x7 := by
  unfold Cert.ReferenceIdeal.RefSide.b2row
  rw [h6]
  exact (Cert.LibCastBcast.row_cast_eq_bcast _ _ _).symm

include h0 h1 h3 in
theorem h1_eq : Cert.ReferenceIdeal.RefSide.h1 m' c = Cert.KernelIdeal.Walk.h1 m c := by
  rw [Cert.ReferenceIdeal.RefSide.h1_eq, nS_eq m m' c h1, h0, h3]

include h0 h1 h2 h3 in
theorem a1_eq : Cert.ReferenceIdeal.RefSide.a1 m' c = Cert.KernelIdeal.Walk.a1 m c := by
  unfold Cert.ReferenceIdeal.RefSide.a1
  rw [h1_eq m m' c h0 h1 h3, h1, h2, edgeSum128_eq]

include h0 h1 h2 h3 h4 in
theorem x1_eq : Cert.ReferenceIdeal.RefSide.x1 m' c = Cert.KernelIdeal.Walk.x1 m c := by
  rw [Cert.ReferenceIdeal.RefSide.x1_eq, a1_eq m m' c h0 h1 h2 h3, nD_eq m m' c h2, b1row_eq m m' c h4]

include h0 h1 h2 h3 h4 h5 in
theorem h2_eq : Cert.ReferenceIdeal.RefSide.h2 m' c = Cert.KernelIdeal.Walk.h2 m c := by
  rw [Cert.ReferenceIdeal.RefSide.h2_eq, x1_eq m m' c h0 h1 h2 h3 h4, nS_eq m m' c h1, h5]

include h0 h1 h2 h3 h4 h5 in
theorem a2_eq : Cert.ReferenceIdeal.RefSide.a2 m' c = Cert.KernelIdeal.Walk.a2 m c := by
  unfold Cert.ReferenceIdeal.RefSide.a2
  rw [h2_eq m m' c h0 h1 h2 h3 h4 h5, h1, h2, edgeSum7_eq]

include h0 h1 h2 h3 h4 h5 h6 in
/-- The reference's result is the kernel program's result. -/
theorem out_eq : Cert.ReferenceIdeal.RefSide.out m' c = Cert.KernelIdeal.Walk.out m c := by
  rw [Cert.ReferenceIdeal.RefSide.out_eq, a2_eq m m' c h0 h1 h2 h3 h4 h5, nD_eq m m' c h2, b2row_eq m m' c h6]

end

end Cert.Proof.Bridge

end
-- ==== Proof.lean ====
/-
  Two graph-convolution layers over 50 000 nodes and 1 600 000 edges: the kernel program against its plain reference,
  equal as functions of the inputs over the extended reals.

  Per layer both programs scale each node's feature row by the inverse square root of its clamped out-degree, multiply by
  the layer's weights, sum the rows along the edges into their destinations, scale by the inverse square root of the
  clamped in-degree and add the bias; the hidden layer is clamped below at zero. The kernel program does the dense parts
  in four grid-tiled regions of 25 row blocks each (the operands narrowed before the product, which changes nothing
  over the reals) and everything along the edges with the same host operations as the reference.

  The three frames are the generated ones (the reference's is its generated run with the result dropped); the ideal
  pass rewrote nothing, so the idealization claim is trivial. For the value claim: the kernel program's run with its
  result buffer kept ends at the last boundary's contents, which walk back through the regions' value lemmas and the host
  stretches to one term of the launch memory; the reference's generated run ends at a term that is the same function,
  layer by layer.
-/
import proofs.«125507_j24232205484470_1_alg».proof.Defs
import proofs.«125507_j24232205484470_1_alg».proof.Proof.Gen.Kernel
import proofs.«125507_j24232205484470_1_alg».proof.Proof.Gen.Kernel.Skeleton
import proofs.«125507_j24232205484470_1_alg».proof.Proof.Gen.Kernel.Launch
import proofs.«125507_j24232205484470_1_alg».proof.Proof.Gen.Kernel.Points
import proofs.«125507_j24232205484470_1_alg».proof.Proof.Gen.Kernel.Frame
import proofs.«125507_j24232205484470_1_alg».proof.Proof.Gen.KernelIdeal
import proofs.«125507_j24232205484470_1_alg».proof.Proof.Gen.KernelIdeal.Skeleton
import proofs.«125507_j24232205484470_1_alg».proof.Proof.Gen.KernelIdeal.Launch
import proofs.«125507_j24232205484470_1_alg».proof.Proof.Gen.KernelIdeal.Points
import proofs.«125507_j24232205484470_1_alg».proof.Proof.Gen.KernelIdeal.Frame
import proofs.«125507_j24232205484470_1_alg».proof.Proof.Gen.ReferenceIdeal
import proofs.«125507_j24232205484470_1_alg».proof.Proof.Gen.ReferenceIdeal.Run
import proofs.«125507_j24232205484470_1_alg».proof.Proof.Gen.Pre_finite_inputs
import proofs.«125507_j24232205484470_1_alg».proof.Proof.KRun
import proofs.«125507_j24232205484470_1_alg».proof.Proof.Walk
import proofs.«125507_j24232205484470_1_alg».proof.Proof.RefSide
import proofs.«125507_j24232205484470_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the kernel program's function of the launch memory: the kernel's by its run and
    the walk through its boundaries, the reference's by its generated run and the layer-by-layer comparison under the
    arguments' agreement. -/
theorem algebraic : Cert.algebraic_KernelIdeal_ReferenceIdeal := by
  intro m ρ m' ρ' _ hagree
  refine ⟨fun c => Cert.KernelIdeal.Walk.out m c, ?_, ?_⟩
  · exact (θ_run Cert.KernelIdeal.defs _ _).mono
      (fun r h c => ⟨(h c).1.trans (Cert.KernelIdeal.Walk.W7_v41 m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    exact (Cert.ReferenceIdeal.RefSide.res_eq m' c).trans (Cert.Proof.Bridge.out_eq m m' c h0 h1 h2 h3 h4 h5 h6)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
